-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x96 : Shape := ⟨2, ![4096, 96]⟩
abbrev S1024x96 : Shape := ⟨2, ![1024, 96]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S16x96x1024 : Shape := ⟨3, ![16, 96, 1024]⟩
abbrev S16x1024x1024 : Shape := ⟨3, ![16, 1024, 1024]⟩
abbrev S16x1024x64 : Shape := ⟨3, ![16, 1024, 64]⟩
abbrev S_ : Shape := ⟨0, ![]⟩

class Facts : Prop where
  bcast_S_S4096x96 : S_.BroadcastsInDim S4096x96 (![] : Fin 0 → Fin S4096x96.rank)
  reducesTo_S4096x96_S_d0_1 : S4096x96.ReducesTo [0, 1] S_
  h_S_ : 0 < S_.numel
  bcast_S_S1024x96 : S_.BroadcastsInDim S1024x96 (![] : Fin 0 → Fin S1024x96.rank)
  reducesTo_S1024x96_S_d0_1 : S1024x96.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S16x96x1024 : S_.BroadcastsInDim S16x96x1024 (![] : Fin 0 → Fin S16x96x1024.rank)
  reducesTo_S16x96x1024_S_d0_1_2 : S16x96x1024.ReducesTo [0, 1, 2] S_
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S16x1024x64 : S_.BroadcastsInDim S16x1024x64 (![] : Fin 0 → Fin S16x1024x64.rank)
  reducesTo_S16x1024x64_S_d0_1_2 : S16x1024x64.ReducesTo [0, 1, 2] S_

variable [Facts]

def fn_part3 {F : FTy → Type} [FloatOps F] (main_arg11 : FVec F S16x1024x1024 .f32) (main_arg12 : FVec F S16x1024x64 .f32) (main_v48 : IVec S_ 1) (main_v49 : FVec F S16x1024x1024 .f32) (main_v50 : FVec F S16x1024x1024 .f32) : IVec S_ 1 :=
  let main_v51 : IVec S16x1024x1024 1 := cmpf .olt main_v49 main_v50
  let main_c_19 : IVec S_ 1 := constantI S_ 1 1#1
  let main_v52 : IVec S_ 1 := (fun x v => Host.reduce IntOp.andi x v reducesTo_S16x1024x1024_S_d0_1_2 h_S_) main_v51 main_c_19
  let main_v53 : IVec S_ 1 := andi main_v48 main_v52
  let main_v54 : FVec F S16x1024x1024 .f32 := Host.absf main_arg11
  let main_cst_20 : FVec F S_ .f32 := constant S_ .f32 0x7F800000#32
  let main_v55 : FVec F S16x1024x1024 .f32 := broadcastInDim S16x1024x1024 ![] bcast_S_S16x1024x1024 main_cst_20
  let main_v56 : IVec S16x1024x1024 1 := cmpf .olt main_v54 main_v55
  let main_c_21 : IVec S_ 1 := constantI S_ 1 1#1
  let main_v57 : IVec S_ 1 := (fun x v => Host.reduce IntOp.andi x v reducesTo_S16x1024x1024_S_d0_1_2 h_S_) main_v56 main_c_21
  let main_v58 : IVec S_ 1 := andi main_v53 main_v57
  let main_v59 : FVec F S16x1024x64 .f32 := Host.absf main_arg12
  let main_cst_22 : FVec F S_ .f32 := constant S_ .f32 0x7F800000#32
  let main_v60 : FVec F S16x1024x64 .f32 := broadcastInDim S16x1024x64 ![] bcast_S_S16x1024x64 main_cst_22
  let main_v61 : IVec S16x1024x64 1 := cmpf .olt main_v59 main_v60
  let main_c_23 : IVec S_ 1 := constantI S_ 1 1#1
  let main_v62 : IVec S_ 1 := (fun x v => Host.reduce IntOp.andi x v reducesTo_S16x1024x64_S_d0_1_2 h_S_) main_v61 main_c_23
  let main_v63 : IVec S_ 1 := andi main_v58 main_v62
  main_v63

def fn_part2 {F : FTy → Type} [FloatOps F] (main_arg7 : FVec F S64x1024 .f32) (main_arg8 : FVec F S64 .f32) (main_arg9 : FVec F S16x96x1024 .f32) (main_arg10 : FVec F S16x1024x1024 .f32) (main_arg11 : FVec F S16x1024x1024 .f32) (main_arg12 : FVec F S16x1024x64 .f32) (main_v33 : IVec S_ 1) : IVec S_ 1 :=
  let main_v34 : FVec F S64x1024 .f32 := Host.absf main_arg7
  let main_cst_12 : FVec F S_ .f32 := constant S_ .f32 0x7F800000#32
  let main_v35 : FVec F S64x1024 .f32 := broadcastInDim S64x1024 ![] bcast_S_S64x1024 main_cst_12
  let main_v36 : IVec S64x1024 1 := cmpf .olt main_v34 main_v35
  let main_c_13 : IVec S_ 1 := constantI S_ 1 1#1
  let main_v37 : IVec S_ 1 := (fun x v => Host.reduce IntOp.andi x v reducesTo_S64x1024_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S16x96x1024 .f32 := Host.absf main_arg9
  let main_cst_16 : FVec F S_ .f32 := constant S_ .f32 0x7F800000#32
  let main_v45 : FVec F S16x96x1024 .f32 := broadcastInDim S16x96x1024 ![] bcast_S_S16x96x1024 main_cst_16
  let main_v46 : IVec S16x96x1024 1 := cmpf .olt main_v44 main_v45
  let main_c_17 : IVec S_ 1 := constantI S_ 1 1#1
  let main_v47 : IVec S_ 1 := (fun x v => Host.reduce IntOp.andi x v reducesTo_S16x96x1024_S_d0_1_2 h_S_) main_v46 main_c_17
  let main_v48 : IVec S_ 1 := andi main_v43 main_v47
  let main_v49 : FVec F S16x1024x1024 .f32 := Host.absf main_arg10
  let main_cst_18 : FVec F S_ .f32 := constant S_ .f32 0x7F800000#32
  let main_v50 : FVec F S16x1024x1024 .f32 := broadcastInDim S16x1024x1024 ![] bcast_S_S16x1024x1024 main_cst_18
  fn_part3 (F := F) main_arg11 main_arg12 main_v48 main_v49 main_v50

def fn_part1 {F : FTy → Type} [FloatOps F] (main_arg4 : FVec F S1024 .f32) (main_arg5 : FVec F S1024x1024 .f32) (main_arg6 : FVec F S1024 .f32) (main_arg7 : FVec F S64x1024 .f32) (main_arg8 : FVec F S64 .f32) (main_arg9 : FVec F S16x96x1024 .f32) (main_arg10 : FVec F S16x1024x1024 .f32) (main_arg11 : FVec F S16x1024x1024 .f32) (main_arg12 : FVec F S16x1024x64 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x96 .f32) (main_arg1 : FVec F S1024x96 .f32) (main_arg2 : FVec F S1024 .f32) (main_arg3 : FVec F S1024x1024 .f32) (main_arg4 : FVec F S1024 .f32) (main_arg5 : FVec F S1024x1024 .f32) (main_arg6 : FVec F S1024 .f32) (main_arg7 : FVec F S64x1024 .f32) (main_arg8 : FVec F S64 .f32) (main_arg9 : FVec F S16x96x1024 .f32) (main_arg10 : FVec F S16x1024x1024 .f32) (main_arg11 : FVec F S16x1024x1024 .f32) (main_arg12 : FVec F S16x1024x64 .f32) : IVec S_ 1 :=
  let main_v0 : FVec F S4096x96 .f32 := Host.absf main_arg0
  let main_cst : FVec F S_ .f32 := constant S_ .f32 0x7F800000#32
  let main_v1 : FVec F S4096x96 .f32 := broadcastInDim S4096x96 ![] bcast_S_S4096x96 main_cst
  let main_v2 : IVec S4096x96 1 := cmpf .olt main_v0 main_v1
  let main_c : IVec S_ 1 := constantI S_ 1 1#1
  let main_v3 : IVec S_ 1 := (fun x v => Host.reduce IntOp.andi x v reducesTo_S4096x96_S_d0_1 h_S_) main_v2 main_c
  let main_v4 : FVec F S1024x96 .f32 := Host.absf main_arg1
  let main_cst_0 : FVec F S_ .f32 := constant S_ .f32 0x7F800000#32
  let main_v5 : FVec F S1024x96 .f32 := broadcastInDim S1024x96 ![] bcast_S_S1024x96 main_cst_0
  let main_v6 : IVec S1024x96 1 := cmpf .olt main_v4 main_v5
  let main_c_1 : IVec S_ 1 := constantI S_ 1 1#1
  let main_v7 : IVec S_ 1 := (fun x v => Host.reduce IntOp.andi x v reducesTo_S1024x96_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_v13 main_v16
-- ==== Kernel.lean ====
abbrev S4096x96 : Shape := ⟨2, ![4096, 96]⟩
abbrev S1024x96 : Shape := ⟨2, ![1024, 96]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S16x96x1024 : Shape := ⟨3, ![16, 96, 1024]⟩
abbrev S16x1024x1024 : Shape := ⟨3, ![16, 1024, 1024]⟩
abbrev S16x1024x64 : Shape := ⟨3, ![16, 1024, 64]⟩
abbrev S96x1024 : Shape := ⟨2, ![96, 1024]⟩
abbrev S1024x64 : Shape := ⟨2, ![1024, 64]⟩
abbrev S1x1024 : Shape := ⟨2, ![1, 1024]⟩
abbrev S1x64 : Shape := ⟨2, ![1, 64]⟩
abbrev S2x4096x64 : Shape := ⟨3, ![2, 4096, 64]⟩
abbrev S1x96x1024 : Shape := ⟨3, ![1, 96, 1024]⟩
abbrev S1x1024x1024 : Shape := ⟨3, ![1, 1024, 1024]⟩
abbrev S1x1024x64 : Shape := ⟨3, ![1, 1024, 64]⟩
abbrev S1x4096x64 : Shape := ⟨3, ![1, 4096, 64]⟩
abbrev S4096x64 : Shape := ⟨2, ![4096, 64]⟩
abbrev S512x96 : Shape := ⟨2, ![512, 96]⟩
abbrev S512x1024 : Shape := ⟨2, ![512, 1024]⟩
abbrev S512x64 : Shape := ⟨2, ![512, 64]⟩

abbrev nBuf : Space → Nat
  | .hbm => 27
  | .vmem => 20
  | .smem => 0
  | _ => 0

abbrev bufTy : (tb : Table) → Fin (tcTables nBuf tb) → BufTy
  | .hbm, ⟨0, _⟩ => ⟨S4096x96, .f32⟩
  | .hbm, ⟨1, _⟩ => ⟨S1024x96, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S64x1024, .f32⟩
  | .hbm, ⟨8, _⟩ => ⟨S64, .f32⟩
  | .hbm, ⟨9, _⟩ => ⟨S16x96x1024, .f32⟩
  | .hbm, ⟨10, _⟩ => ⟨S16x1024x1024, .f32⟩
  | .hbm, ⟨11, _⟩ => ⟨S16x1024x1024, .f32⟩
  | .hbm, ⟨12, _⟩ => ⟨S16x1024x64, .f32⟩
  | .hbm, ⟨13, _⟩ => ⟨S96x1024, .f32⟩
  | .hbm, ⟨14, _⟩ => ⟨S1024x1024, .f32⟩
  | .hbm, ⟨15, _⟩ => ⟨S1024x1024, .f32⟩
  | .hbm, ⟨16, _⟩ => ⟨S1024x64, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x64, .f32⟩
  | .hbm, ⟨21, _⟩ => ⟨S2x4096x64, .f32⟩
  | .hbm, ⟨22, _⟩ => ⟨S1x4096x64, .f32⟩
  | .hbm, ⟨23, _⟩ => ⟨S4096x64, .f32⟩
  | .hbm, ⟨24, _⟩ => ⟨S1x4096x64, .f32⟩
  | .hbm, ⟨25, _⟩ => ⟨S4096x64, .f32⟩
  | .hbm, ⟨26, _⟩ => ⟨S4096x64, .f32⟩
  | .local _ .vmem, ⟨0, _⟩ => ⟨S4096x96, .f32⟩
  | .local _ .vmem, ⟨1, _⟩ => ⟨S96x1024, .f32⟩
  | .local _ .vmem, ⟨2, _⟩ => ⟨S1x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1024x64, .f32⟩
  | .local _ .vmem, ⟨8, _⟩ => ⟨S1x64, .f32⟩
  | .local _ .vmem, ⟨9, _⟩ => ⟨S1x96x1024, .f32⟩
  | .local _ .vmem, ⟨10, _⟩ => ⟨S1x96x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1024x64, .f32⟩
  | .local _ .vmem, ⟨16, _⟩ => ⟨S1x1024x64, .f32⟩
  | .local _ .vmem, ⟨17, _⟩ => ⟨S1x4096x64, .f32⟩
  | .local _ .vmem, ⟨18, _⟩ => ⟨S1x4096x64, .f32⟩
  | .local _ .vmem, ⟨19, _⟩ => ⟨S4096x64, .f32⟩
  | _, _ => ⟨S4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg17 : BitVec 32 := Scf.iv c0_i32_1 c1_i32 k0_t1
  let c1_i32_4 : BitVec 32 := 1#32
  let v7 : BitVec 32 := Scalar.muli arg17 c1_i32_4
  let v8 : BitVec 32 := Scalar.addi c0_i32_5 v7
  let c512_i32 : BitVec 32 := 512#32
  let v9 : BitVec 32 := Scalar.muli v8 c512_i32
  v9
def k0_off1 (k0_t1 : Fin k0_t1_loop.trips) : Fin 2 → Nat :=
  let c0_i32_5 : BitVec 32 := 0#32
  let c0_i32_1 : BitVec 32 := 0#32
  let c1_i32 : BitVec 32 := 1#32
  let arg17 : BitVec 32 := Scf.iv c0_i32_1 c1_i32 k0_t1
  let c1_i32_4 : BitVec 32 := 1#32
  let v7 : BitVec 32 := Scalar.muli arg17 c1_i32_4
  let v8 : BitVec 32 := Scalar.addi c0_i32_5 v7
  let c512_i32 : BitVec 32 := 512#32
  let v9 : BitVec 32 := Scalar.muli v8 c512_i32
  let v10 : BitVec 32 := v9
  let v11 : Index := Scalar.indexCast v10
  let c0 : Index := 0#32
  ![v11.toNat, 0]
def k0_off2 (k0_t1 : Fin k0_t1_loop.trips) : Fin 2 → Nat :=
  let c0_i32_5 : BitVec 32 := 0#32
  let c0_i32_1 : BitVec 32 := 0#32
  let c1_i32 : BitVec 32 := 1#32
  let arg17 : BitVec 32 := Scf.iv c0_i32_1 c1_i32 k0_t1
  let c1_i32_4 : BitVec 32 := 1#32
  let v7 : BitVec 32 := Scalar.muli arg17 c1_i32_4
  let v8 : BitVec 32 := Scalar.addi c0_i32_5 v7
  let c512_i32 : BitVec 32 := 512#32
  let v9 : BitVec 32 := Scalar.muli v8 c512_i32
  let v10 : BitVec 32 := v9
  let v67 : Index := Scalar.indexCast v10
  let c0_40 : Index := 0#32
  ![v67.toNat, 0]
def k0_cond2 (i : grid0.Coords) : BitVec 1 :=
  let arg1 : BitVec 32 := BitVec.ofNat 32 (i 1).val
  let c7_i32 : BitVec 32 := 7#32
  let v4 : BitVec 1 := Scalar.cmpi .eq arg1 c7_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S96x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x96x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4096x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  transposes_S1024x96_S96x1024_1_0 : S1024x96.Transposes [1, 0] S96x1024
  transposes_S1024x1024_S1024x1024_1_0 : S1024x1024.Transposes [1, 0] S1024x1024
  transposes_S64x1024_S1024x64_1_0 : S64x1024.Transposes [1, 0] S1024x64
  shapeCasts_S1024_S1x1024 : S1024.ShapeCasts S1x1024
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  h_S512x96 : 0 < S512x96.numel
  inb_S96x1024_S96x1024_0_0 : ∀ a, (![0, 0] : Fin 2 → Nat) a + S96x1024.size a ≤ S96x1024.size a
  h_S96x1024 : 0 < S96x1024.numel
  shapeCasts_S96x1024_S96x1024 : S96x1024.ShapeCasts S96x1024
  inb_S1x96x1024_S1x96x1024_0_0_0 : ∀ a, (![0, 0, 0] : Fin 3 → Nat) a + S1x96x1024.size a ≤ S1x96x1024.size a
  h_S1x96x1024 : 0 < S1x96x1024.numel
  shapeCasts_S1x96x1024_S96x1024 : S1x96x1024.ShapeCasts S96x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  h_S512x64 : 0 < S512x64.numel
  shapeCasts_S512x64_S512x64 : S512x64.ShapeCasts S512x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  slices_S2x4096x64_S1x4096x64_0_0_0 : S2x4096x64.Slices ![0, 0, 0] S1x4096x64
  slices_S2x4096x64_S1x4096x64_1_0_0 : S2x4096x64.Slices ![1, 0, 0] S1x4096x64
  dot_S512x96_S96x1024_S512x1024_1_0_0_1_n_n_wf : DotDims.WF S512x96 S96x1024 S512x1024 [1] [0] [0] [1] [] []
  dot_S512x1024_S1024x1024_S512x1024_1_0_0_1_n_n_wf : DotDims.WF S512x1024 S1024x1024 S512x1024 [1] [0] [0] [1] [] []
  dot_S512x1024_S1024x64_S512x64_1_0_0_1_n_n_wf : DotDims.WF S512x1024 S1024x64 S512x64 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x96.size a ≤ S4096x96.size a
  k0_off2_inb : ∀ k0_t1 : Fin k0_t1_loop.trips, ∀ a, (k0_off2 k0_t1) a + S512x64.size a ≤ S4096x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x96.size a ≤ S4096x96.size a
  hwx0_0 : ∀ i : grid0.Coords, EltTy.bits .f32 = 32 ∨ (Rect.block (s := S4096x96) S4096x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x1024.size a ≤ S96x1024.size a
  hwx0_1 : ∀ i : grid0.Coords, EltTy.bits .f32 = 32 ∨ (Rect.block (s := S96x1024) S96x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S1024x64.size a
  hwx0_7 : ∀ i : grid0.Coords, EltTy.bits .f32 = 32 ∨ (Rect.block (s := S1024x64) S1024x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x96x1024.size a ≤ S16x96x1024.size a
  hwx0_9 : ∀ i : grid0.Coords, EltTy.bits .f32 = 32 ∨ (Rect.block (s := S16x96x1024) S1x96x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x1024.size a ≤ S16x1024x1024.size a
  hwx0_10 : ∀ i : grid0.Coords, EltTy.bits .f32 = 32 ∨ (Rect.block (s := S16x1024x1024) S1x1024x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x1024.size a ≤ S16x1024x1024.size a
  hwx0_11 : ∀ i : grid0.Coords, EltTy.bits .f32 = 32 ∨ (Rect.block (s := S16x1024x1024) S1x1024x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1024x64.size a ≤ S16x1024x64.size a
  hwx0_12 : ∀ i : grid0.Coords, EltTy.bits .f32 = 32 ∨ (Rect.block (s := S16x1024x64) S1x1024x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x4096x64.size a ≤ S2x4096x64.size a
  hwx0_13 : ∀ i : grid0.Coords, EltTy.bits .f32 = 32 ∨ (Rect.block (s := S2x4096x64) S1x4096x64.size (cc0_transform_13 i) (hinb0_13 i)).WholeWords (EltTy.packing .f32)

variable [Facts₀]

def dot_S512x96_S96x1024_S512x1024_1_0_0_1_n_n : DotDims S512x96 S96x1024 S512x1024 where
  lhsContracting := [1]
  rhsContracting := [0]
  lhsNonContracting := [0]
  rhsNonContracting := [1]
  lhsBatch := []
  rhsBatch := []
  wf := dot_S512x96_S96x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S4096x96.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S96x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x96x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x1024x1024.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x1024x1024.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x1024x64.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x4096x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | ⟨_ + 14, h⟩ => absurd h (Nat.not_lt.2 (Nat.le_add_left _ _))

class Facts : Prop extends Facts₀ where

variable [Facts]
-- ==== ReferenceIdeal.lean ====
abbrev S4096x96 : Shape := ⟨2, ![4096, 96]⟩
abbrev S1024x96 : Shape := ⟨2, ![1024, 96]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S16x96x1024 : Shape := ⟨3, ![16, 96, 1024]⟩
abbrev S16x1024x1024 : Shape := ⟨3, ![16, 1024, 1024]⟩
abbrev S16x1024x64 : Shape := ⟨3, ![16, 1024, 64]⟩
abbrev S1x4096x96 : Shape := ⟨3, ![1, 4096, 96]⟩
abbrev S16x4096x96 : Shape := ⟨3, ![16, 4096, 96]⟩
abbrev S96x1024 : Shape := ⟨2, ![96, 1024]⟩
abbrev S1x96x1024 : Shape := ⟨3, ![1, 96, 1024]⟩
abbrev S16x4096x1024 : Shape := ⟨3, ![16, 4096, 1024]⟩
abbrev S1x1x1024 : Shape := ⟨3, ![1, 1, 1024]⟩
abbrev S_ : Shape := ⟨0, ![]⟩
abbrev S1x1024x1024 : Shape := ⟨3, ![1, 1024, 1024]⟩
abbrev S1024x64 : Shape := ⟨2, ![1024, 64]⟩
abbrev S1x1024x64 : Shape := ⟨3, ![1, 1024, 64]⟩
abbrev S16x4096x64 : Shape := ⟨3, ![16, 4096, 64]⟩
abbrev S1x1x64 : Shape := ⟨3, ![1, 1, 64]⟩
abbrev S4096x64 : Shape := ⟨2, ![4096, 64]⟩

abbrev nBuf : Space → Nat
  | .hbm => 61
  | .vmem => 0
  | .smem => 0
  | _ => 0

abbrev bufTy : (tb : Table) → Fin (tcTables nBuf tb) → BufTy
  | .hbm, ⟨0, _⟩ => ⟨S4096x96, .f32⟩
  | .hbm, ⟨1, _⟩ => ⟨S1024x96, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S64x1024, .f32⟩
  | .hbm, ⟨8, _⟩ => ⟨S64, .f32⟩
  | .hbm, ⟨9, _⟩ => ⟨S16x96x1024, .f32⟩
  | .hbm, ⟨10, _⟩ => ⟨S16x1024x1024, .f32⟩
  | .hbm, ⟨11, _⟩ => ⟨S16x1024x1024, .f32⟩
  | .hbm, ⟨12, _⟩ => ⟨S16x1024x64, .f32⟩
  | .hbm, ⟨13, _⟩ => ⟨S1x4096x96, .f32⟩
  | .hbm, ⟨14, _⟩ => ⟨S16x4096x96, .f32⟩
  | .hbm, ⟨15, _⟩ => ⟨S96x1024, .f32⟩
  | .hbm, ⟨16, _⟩ => ⟨S1x96x1024, .f32⟩
  | .hbm, ⟨17, _⟩ => ⟨S16x96x1024, .f32⟩
  | .hbm, ⟨18, _⟩ => ⟨S16x96x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S_, .f32⟩
  | .hbm, ⟨24, _⟩ => ⟨S16x4096x1024, .f32⟩
  | .hbm, ⟨25, _⟩ => ⟨S16x4096x1024, .f32⟩
  | .hbm, ⟨26, _⟩ => ⟨S1024x1024, .f32⟩
  | .hbm, ⟨27, _⟩ => ⟨S1x1024x1024, .f32⟩
  | .hbm, ⟨28, _⟩ => ⟨S16x1024x1024, .f32⟩
  | .hbm, ⟨29, _⟩ => ⟨S16x1024x1024, .f32⟩
  | .hbm, ⟨30, _⟩ => ⟨S16x4096x1024, .f32⟩
  | .hbm, ⟨31, _⟩ => ⟨S1x1x1024, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x4096x1024, .f32⟩
  | .hbm, ⟨36, _⟩ => ⟨S16x4096x1024, .f32⟩
  | .hbm, ⟨37, _⟩ => ⟨S1024x1024, .f32⟩
  | .hbm, ⟨38, _⟩ => ⟨S1x1024x1024, .f32⟩
  | .hbm, ⟨39, _⟩ => ⟨S16x1024x1024, .f32⟩
  | .hbm, ⟨40, _⟩ => ⟨S16x1024x1024, .f32⟩
  | .hbm, ⟨41, _⟩ => ⟨S16x4096x1024, .f32⟩
  | .hbm, ⟨42, _⟩ => ⟨S1x1x1024, .f32⟩
  | .hbm, ⟨43, _⟩ => ⟨S16x4096x1024, .f32⟩
  | .hbm, ⟨44, _⟩ => ⟨S16x4096x1024, .f32⟩
  | .hbm, ⟨45, _⟩ => ⟨S_, .f32⟩
  | .hbm, ⟨46, _⟩ => ⟨S16x4096x1024, .f32⟩
  | .hbm, ⟨47, _⟩ => ⟨S16x4096x1024, .f32⟩
  | .hbm, ⟨48, _⟩ => ⟨S1024x64, .f32⟩
  | .hbm, ⟨49, _⟩ => ⟨S1x1024x64, .f32⟩
  | .hbm, ⟨50, _⟩ => ⟨S16x1024x64, .f32⟩
  | .hbm, ⟨51, _⟩ => ⟨S16x1024x64, .f32⟩
  | .hbm, ⟨52, _⟩ => ⟨S16x4096x64, .f32⟩
  | .hbm, ⟨53, _⟩ => ⟨S1x1x64, .f32⟩
  | .hbm, ⟨54, _⟩ => ⟨S16x4096x64, .f32⟩
  | .hbm, ⟨55, _⟩ => ⟨S16x4096x64, .f32⟩
  | .hbm, ⟨56, _⟩ => ⟨S_, .f32⟩
  | .hbm, ⟨57, _⟩ => ⟨S4096x64, .f32⟩
  | .hbm, ⟨58, _⟩ => ⟨S_, .f32⟩
  | .hbm, ⟨59, _⟩ => ⟨S4096x64, .f32⟩
  | .hbm, ⟨60, _⟩ => ⟨S4096x64, .f32⟩
  | _, _ => ⟨S4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_cst : Ref sig .tc := ⟨.hbm, 23, rfl⟩
abbrev main_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_cst : Ref sig .tc := ⟨.hbm, 34, rfl⟩
abbrev main_call1_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call2_cst : Ref sig .tc := ⟨.hbm, 45, rfl⟩
abbrev main_call2_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst : Ref sig .tc := ⟨.hbm, 56, rfl⟩
abbrev main_v37 : Ref sig .tc := ⟨.hbm, 57, rfl⟩
abbrev main_cst_0 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  bcast_S4096x96_S1x4096x96_1_2 : S4096x96.BroadcastsInDim S1x4096x96 (![1, 2] : Fin 2 → Fin S1x4096x96.rank)
  bcast_S1x4096x96_S16x4096x96_0_1_2 : S1x4096x96.BroadcastsInDim S16x4096x96 (![0, 1, 2] : Fin 3 → Fin S16x4096x96.rank)
  transposes_S1024x96_S96x1024_1_0 : S1024x96.Transposes [1, 0] S96x1024
  bcast_S96x1024_S1x96x1024_1_2 : S96x1024.BroadcastsInDim S1x96x1024 (![1, 2] : Fin 2 → Fin S1x96x1024.rank)
  bcast_S1x96x1024_S16x96x1024_0_1_2 : S1x96x1024.BroadcastsInDim S16x96x1024 (![0, 1, 2] : Fin 3 → Fin S16x96x1024.rank)
  bcast_S1024_S1x1x1024_2 : S1024.BroadcastsInDim S1x1x1024 (![2] : Fin 1 → Fin S1x1x1024.rank)
  bcast_S1x1x1024_S16x4096x1024_0_1_2 : S1x1x1024.BroadcastsInDim S16x4096x1024 (![0, 1, 2] : Fin 3 → Fin S16x4096x1024.rank)
  bcast_S_S16x4096x1024 : S_.BroadcastsInDim S16x4096x1024 (![] : Fin 0 → Fin S16x4096x1024.rank)
  transposes_S1024x1024_S1024x1024_1_0 : S1024x1024.Transposes [1, 0] S1024x1024
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  transposes_S64x1024_S1024x64_1_0 : S64x1024.Transposes [1, 0] S1024x64
  bcast_S1024x64_S1x1024x64_1_2 : S1024x64.BroadcastsInDim S1x1024x64 (![1, 2] : Fin 2 → Fin S1x1024x64.rank)
  bcast_S1x1024x64_S16x1024x64_0_1_2 : S1x1024x64.BroadcastsInDim S16x1024x64 (![0, 1, 2] : Fin 3 → Fin S16x1024x64.rank)
  bcast_S64_S1x1x64_2 : S64.BroadcastsInDim S1x1x64 (![2] : Fin 1 → Fin S1x1x64.rank)
  bcast_S1x1x64_S16x4096x64_0_1_2 : S1x1x64.BroadcastsInDim S16x4096x64 (![0, 1, 2] : Fin 3 → Fin S16x4096x64.rank)
  reducesTo_S16x4096x64_S4096x64_d0 : S16x4096x64.ReducesTo [0] S4096x64
  h_S_ : 0 < S_.numel
  bcast_S_S4096x64 : S_.BroadcastsInDim S4096x64 (![] : Fin 0 → Fin S4096x64.rank)
  dot_S16x4096x96_S16x96x1024_S16x4096x1024_2_1_1_2_0_0_wf : DotDims.WF S16x4096x96 S16x96x1024 S16x4096x1024 [2] [1] [1] [2] [0] [0]
  dot_S16x4096x1024_S16x1024x1024_S16x4096x1024_2_1_1_2_0_0_wf : DotDims.WF S16x4096x1024 S16x1024x1024 S16x4096x1024 [2] [1] [1] [2] [0] [0]
  dot_S16x4096x1024_S16x1024x64_S16x4096x64_2_1_1_2_0_0_wf : DotDims.WF S16x4096x1024 S16x1024x64 S16x4096x64 [2] [1] [1] [2] [0] [0]

variable [Facts₀]

def dot_S16x4096x96_S16x96x1024_S16x4096x1024_2_1_1_2_0_0 : DotDims S16x4096x96 S16x96x1024 S16x4096x1024 where
  lhsContracting := [2]
  rhsContracting := [1]
  lhsNonContracting := [1]
  rhsNonContracting := [2]
  lhsBatch := [0]
  rhsBatch := [0]
  wf := dot_S16x4096x96_S16x96x1024_S16x4096x1024_2_1_1_2_0_0_wf
def dot_S16x4096x1024_S16x1024x1024_S16x4096x1024_2_1_1_2_0_0 : DotDims S16x4096x1024 S16x1024x1024 S16x4096x1024 where
  lhsContracting := [2]
  rhsContracting := [1]
  lhsNonContracting := [1]
  rhsNonContracting := [2]
  lhsBatch := [0]
  rhsBatch := [0]
  wf := dot_S16x4096x1024_S16x1024x1024_S16x4096x1024_2_1_1_2_0_0_wf
def dot_S16x4096x1024_S16x1024x64_S16x4096x64_2_1_1_2_0_0 : DotDims S16x4096x1024 S16x1024x64 S16x4096x64 where
  lhsContracting := [2]
  rhsContracting := [1]
  lhsNonContracting := [1]
  rhsNonContracting := [2]
  lhsBatch := [0]
  rhsBatch := [0]
  wf := dot_S16x4096x1024_S16x1024x64_S16x4096x64_2_1_1_2_0_0_wf

class Facts : Prop extends Facts₀ where

variable [Facts]
-- ==== Proof.Spec.lean ====
/-
  The mathematics of the claim, with no program in sight.

  Sixteen masked multi-layer perceptrons share four weight matrices; member `b` multiplies the transposed weight of
  layer `l` entrywise by its own 0/1 connectivity mask,  (Wₗᵀ ∘ Mₗ[b])(k, j) = Wₗ(j, k) · Mₗ(b, k, j),  and applies
  x ↦ relu(x · (Wₗᵀ ∘ Mₗ[b]) + bₗ)  three times and one affine layer without the relu.  The result is the MEAN of the
  sixteen outputs.  Everything is over the extended reals: a sum is a finite sum in a commutative monoid, so neither its
  order nor its grouping matters, and the mean's factor 1/16 is a nonnegative real, which distributes over a sum of
  extended reals whatever infinities the summands hold.
-/
import Idealize.ShloMosaic.PureOps.Ideal
import Idealize.ShloMosaic.PureOps.Ideal.Laws
import Idealize.ShloMosaic.Lib.ValueIdx
import Mathlib.Data.EReal.Operations
import Mathlib.Algebra.BigOperators.Fin

noncomputable section

namespace Cert.MaskedMlp

open Idealize.ShloMosaic Idealize.ShloMosaic.ValueIdx

/-- The thirteen argument arrays, as extended reals. -/
structure Args where
  xy : FVec Ideal ⟨2, ![4096, 96]⟩ .f32
  W0 : FVec Ideal ⟨2, ![1024, 96]⟩ .f32
  b0 : FVec Ideal ⟨1, ![1024]⟩ .f32
  W1 : FVec Ideal ⟨2, ![1024, 1024]⟩ .f32
  b1 : FVec Ideal ⟨1, ![1024]⟩ .f32
  W2 : FVec Ideal ⟨2, ![1024, 1024]⟩ .f32
  b2 : FVec Ideal ⟨1, ![1024]⟩ .f32
  W3 : FVec Ideal ⟨2, ![64, 1024]⟩ .f32
  b3 : FVec Ideal ⟨1, ![64]⟩ .f32
  M0 : FVec Ideal ⟨3, ![16, 96, 1024]⟩ .f32
  M1 : FVec Ideal ⟨3, ![16, 1024, 1024]⟩ .f32
  M2 : FVec Ideal ⟨3, ![16, 1024, 1024]⟩ .f32
  M3 : FVec Ideal ⟨3, ![16, 1024, 64]⟩ .f32

/-- Member `b`'s masked transposed weight at (k, j): W(j, k) · M(b, k, j). -/
def mw {I O : Nat} (W : FVec Ideal ⟨2, ![O, I]⟩ .f32) (M : FVec Ideal ⟨3, ![16, I, O]⟩ .f32) (b : Fin 16) (k : Fin I) (j : Fin O) : EReal :=
  (W (ix2 j k) : EReal) * (M (ix3 b k j) : EReal)

/-- One entry of an affine layer: Σₖ x(k) · (Wᵀ ∘ M[b])(k, j) + bias(j). -/
def affine {I O : Nat} (x : Fin I → EReal) (W : FVec Ideal ⟨2, ![O, I]⟩ .f32) (M : FVec Ideal ⟨3, ![16, I, O]⟩ .f32)
    (bias : FVec Ideal ⟨1, ![O]⟩ .f32) (b : Fin 16) (j : Fin O) : EReal :=
  (∑ k : Fin I, x k * mw W M b k j) + (bias (ix1 j) : EReal)

/-- The same entry from the operands as one grid step holds them: the transposed weight `w` (k, j), member `b`'s mask as a
    one-member block `mk` (0, k, j) and the bias as a one-row matrix `br` (0, j). -/
def blockAffine {I O : Nat} (x : Fin I → EReal) (w : FVec Ideal ⟨2, ![I, O]⟩ .f32) (mk : FVec Ideal ⟨3, ![1, I, O]⟩ .f32)
    (br : FVec Ideal ⟨2, ![1, O]⟩ .f32) (j : Fin O) : EReal :=
  (∑ k : Fin I, x k * ((w (ix2 k j) : EReal) * (mk (ix3 (0 : Fin 1) k j) : EReal))) + (br (ix2 (0 : Fin 1) j) : EReal)

/-- The block form is the array form when the blocks are the transposed weight, member `b`'s mask and the bias row. -/
theorem blockAffine_eq_affine {I O : Nat} (x : Fin I → EReal) (W : FVec Ideal ⟨2, ![O, I]⟩ .f32) (M : FVec Ideal ⟨3, ![16, I, O]⟩ .f32)
    (bias : FVec Ideal ⟨1, ![O]⟩ .f32) (b : Fin 16) (w : FVec Ideal ⟨2, ![I, O]⟩ .f32) (mk : FVec Ideal ⟨3, ![1, I, O]⟩ .f32)
    (br : FVec Ideal ⟨2, ![1, O]⟩ .f32) (hw : ∀ k j, w (ix2 k j) = W (ix2 j k)) (hm : ∀ k j, mk (ix3 (0 : Fin 1) k j) = M (ix3 b k j))
    (hb : ∀ j, br (ix2 (0 : Fin 1) j) = bias (ix1 j)) (j : Fin O) : blockAffine x w mk br j = affine x W M bias b j := by
  unfold blockAffine affine mw
  rw [hb j]
  congr 1
  exact Finset.sum_congr rfl fun k _ => by rw [hw k j, hm k j]

/-- The first hidden layer of member `b` at row `n`. -/
def h1 (a : Args) (b : Fin 16) (n : Fin 4096) (j : Fin 1024) : EReal :=
  max (affine (fun k => (a.xy (ix2 n k) : EReal)) a.W0 a.M0 a.b0 b j) 0
/-- The second. -/
def h2 (a : Args) (b : Fin 16) (n : Fin 4096) (j : Fin 1024) : EReal :=
  max (affine (h1 a b n) a.W1 a.M1 a.b1 b j) 0
/-- The third. -/
def h3 (a : Args) (b : Fin 16) (n : Fin 4096) (j : Fin 1024) : EReal :=
  max (affine (h2 a b n) a.W2 a.M2 a.b2 b j) 0
/-- Member `b`'s output at (n, p). -/
def out (a : Args) (b : Fin 16) (n : Fin 4096) (p : Fin 64) : EReal :=
  affine (h3 a b n) a.W3 a.M3 a.b3 b p

/-- The members counted by a natural number (zero past the sixteenth, which no statement reaches). -/
def outN (a : Args) (t : Nat) (n : Fin 4096) (p : Fin 64) : EReal :=
  if h : t < 16 then out a ⟨t, h⟩ n p else 0

theorem outN_val (a : Args) (b : Fin 16) (n : Fin 4096) (p : Fin 64) : outN a b.val n p = out a b n p := by
  unfold outN; rw [dif_pos b.isLt]

/-- The running sum of one half of the ensemble: after member `t`, the members of `t`'s half (the eight members
    8·⌊t/8⌋ … 8·⌊t/8⌋ + 7) up to and including `t`, added in order. -/
def accT (a : Args) (t : Nat) (n : Fin 4096) (p : Fin 64) : EReal :=
  ∑ q ∈ Finset.range (t % 8 + 1), outN a (t / 8 * 8 + q) n p

/-- A half's first member starts its sum. -/
theorem accT_first (a : Args) (t : Nat) (h : t % 8 = 0) (n : Fin 4096) (p : Fin 64) : accT a t n p = outN a t n p := by
  unfold accT
  rw [h, Finset.sum_range_one]
  congr 1; omega

/-- Every later member is added to what the member before left. -/
theorem accT_next (a : Args) (t : Nat) (h : t % 8 ≠ 0) (n : Fin 4096) (p : Fin 64) :
    accT a t n p = accT a (t - 1) n p + outN a t n p := by
  unfold accT
  have e1 : t % 8 + 1 = ((t - 1) % 8 + 1) + 1 := by omega
  have e2 : (t - 1) / 8 * 8 = t / 8 * 8 := by omega
  rw [e1, Finset.sum_range_succ, e2]
  congr 2; omega

/-- The mean's factor. -/
def c16 : EReal := ((1 / 16 : ℝ) : EReal)

/-- The mean of the sixteen outputs. -/
def G (a : Args) : FVec Ideal ⟨2, ![4096, 64]⟩ .f32 := fun i => (∑ b : Fin 16, out a b (i 0) (i 1)) * c16

/-- The two halves' scaled sums add up to the mean: 1/16 is a nonnegative real, so it distributes over the sum of the
    two halves whatever they are, and the sixteen members are the first eight and then the next eight. -/
theorem halves (a : Args) (n : Fin 4096) (p : Fin 64) :
    accT a 7 n p * c16 + accT a 15 n p * c16 = (∑ b : Fin 16, out a b n p) * c16 := by
  have hc0 : (0 : EReal) ≤ c16 := by unfold c16; exact EReal.coe_nonneg.mpr (by norm_num)
  have hct : c16 ≠ ⊤ := EReal.coe_ne_top _
  rw [← EReal.right_distrib_of_nonneg_of_ne_top hc0 hct]
  congr 1
  have e : (∑ b : Fin 16, out a b n p) = ∑ i ∈ Finset.range (8 + 8), outN a i n p := by
    rw [← Fin.sum_univ_eq_sum_range (fun i => outN a i n p) 16]
    exact Finset.sum_congr rfl fun b _ => (outN_val a b n p).symm
  rw [e, Finset.sum_range_add]
  unfold accT
  congr 1

/-! ## The three float patterns the programs spell -/

/-- `+0.0` denotes 0. -/
theorem ofBits_zero : Ideal.ofBits .f32 0x00000000#32 = 0 := Ideal.ofBits_zero_f32
/-- `0.0625` denotes 1/16. -/
theorem ofBits_sixteenth : Ideal.ofBits .f32 0x3D800000#32 = c16 := by
  unfold c16
  simp [Ideal.ofBits, Ideal.ieee, -EReal.coe_mul]; norm_num
/-- `16.0` denotes 16. -/
theorem ofBits_sixteen : Ideal.ofBits .f32 0x41800000#32 = ((16 : ℝ) : EReal) := by
  simp [Ideal.ofBits, Ideal.ieee, -EReal.coe_mul]; norm_num

/-- Dividing by sixteen is multiplying by a sixteenth, on every extended real. -/
theorem div_sixteen (x : EReal) : Ideal.div x ((16 : ℝ) : EReal) = x * c16 := by
  unfold c16
  rw [Ideal.div_coe (by norm_num : (16 : ℝ) ≠ 0)]

end Cert.MaskedMlp

end
-- ==== Proof.RefValue.lean ====
import proofs.«172082_j82995948027952_1_alg».proof.Proof.Gen.ReferenceIdeal.Read
import proofs.«172082_j82995948027952_1_alg».proof.Proof.Spec

/-
  The reference program computes the specification's function.

  The program broadcasts the input over the sixteen members, and per layer contracts it with the transposed weight
  times the member's mask, adds the bias row and (after the first three layers) takes the maximum with zero; it then
  adds the sixteen outputs to zero and divides by sixteen.  Read at one index (b, n, j), each layer is the
  specification's layer at (b, n, j): the broadcasts and the transposition only move indices, the contraction is the
  finite sum over the contracted axis, and the division by sixteen is the multiplication by one sixteenth.
-/

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.MaskedMlp

/-! ## Where the layout operations send an index -/

/-- The input, broadcast over the members and read by the first contraction at (b, n, ·, k), is the input at (n, k). -/
theorem idx_xy (b : Fin 16) (n : Fin 4096) (j : Fin 1024) (k : Fin 96) :
    Read.idx_main_v0 (Read.idx_main_v1 (Read.lidx_main_v6 (ix3 b n j) k)) = ix2 n k :=
  funext fun a => Fin.ext (by match a with | ⟨0, _⟩ => rfl | ⟨1, _⟩ => rfl)

/-- The first contraction reads its right operand at (b, k, j). -/
theorem ridx_v6 (b : Fin 16) (n : Fin 4096) (j : Fin 1024) (k : Fin 96) :
    Read.ridx_main_v6 (ix3 b n j) k = ix3 b k j :=
  funext fun a => Fin.ext (by match a with | ⟨0, _⟩ => rfl | ⟨1, _⟩ => rfl | ⟨2, _⟩ => rfl)

/-- The first weight, transposed and broadcast over the members, read at (b, k, j), is the weight at (j, k). -/
theorem idx_w0 (b : Fin 16) (k : Fin 96) (j : Fin 1024) :
    Read.idx_main_v2 (Read.idx_main_v3 (Read.idx_main_v4 (ix3 b k j))) = ix2 j k :=
  funext fun a => Fin.ext (by match a with | ⟨0, _⟩ => rfl | ⟨1, _⟩ => rfl)

/-- The first bias, broadcast over members and rows, read at (b, n, j), is the bias at j. -/
theorem idx_b0 (b : Fin 16) (n : Fin 4096) (j : Fin 1024) :
    Read.idx_main_v7 (Read.idx_main_v8 (ix3 b n j)) = ix1 j :=
  funext fun a => Fin.ext (by match a with | ⟨0, _⟩ => rfl)

/-! ## The first hidden layer -/

theorem v10_apply (a : Args) (b : Fin 16) (n : Fin 4096) (j : Fin 1024) :
    Read.val_main_v10 (F := Ideal) a.xy a.W0 a.b0 a.M0 (ix3 b n j) = h1 a b n j := by
  rw [Read.val_main_v10_apply, Read.val_main_v9_apply, Read.val_main_v6_apply, Read.val_main_v8_apply,
    Read.val_main_v7_apply, Read.val_main_call0_v0_apply, Read.val_main_call0_cst_apply, Ideal.maximumf_def,
    Ideal.addf_def, Ideal.ofBits_def, ofBits_zero, idx_b0]
  unfold h1 affine
  refine congrArg (max · 0) (congrArg (· + _) (Finset.sum_congr rfl fun k _ => ?_))
  rw [Read.val_main_v1_apply, Read.val_main_v0_apply, Read.val_main_v5_apply, Read.val_main_v4_apply,
    Read.val_main_v3_apply, Read.val_main_v2_apply, Ideal.mulf_def, idx_xy, ridx_v6, idx_w0]
  rfl

/-! ## The second hidden layer -/

/-- The second contraction reads the layer before at (b, n, k). -/
theorem lidx_v15 (b : Fin 16) (n : Fin 4096) (j : Fin 1024) (k : Fin 1024) :
    Read.lidx_main_v15 (ix3 b n j) k = ix3 b n k :=
  funext fun a => Fin.ext (by match a with | ⟨0, _⟩ => rfl | ⟨1, _⟩ => rfl | ⟨2, _⟩ => rfl)

/-- And its right operand at (b, k, j). -/
theorem ridx_v15 (b : Fin 16) (n : Fin 4096) (j : Fin 1024) (k : Fin 1024) :
    Read.ridx_main_v15 (ix3 b n j) k = ix3 b k j :=
  funext fun a => Fin.ext (by match a with | ⟨0, _⟩ => rfl | ⟨1, _⟩ => rfl | ⟨2, _⟩ => rfl)

/-- The second weight, transposed and broadcast over the members, read at (b, k, j), is the weight at (j, k). -/
theorem idx_w1 (b : Fin 16) (k : Fin 1024) (j : Fin 1024) :
    Read.idx_main_v11 (Read.idx_main_v12 (Read.idx_main_v13 (ix3 b k j))) = ix2 j k :=
  funext fun a => Fin.ext (by match a with | ⟨0, _⟩ => rfl | ⟨1, _⟩ => rfl)

/-- The second bias, broadcast over members and rows, read at (b, n, j), is the bias at j. -/
theorem idx_b1 (b : Fin 16) (n : Fin 4096) (j : Fin 1024) :
    Read.idx_main_v16 (Read.idx_main_v17 (ix3 b n j)) = ix1 j :=
  funext fun a => Fin.ext (by match a with | ⟨0, _⟩ => rfl)

theorem v19_apply (a : Args) (b : Fin 16) (n : Fin 4096) (j : Fin 1024) :
    Read.val_main_v19 (F := Ideal) a.xy a.W0 a.b0 a.W1 a.b1 a.M0 a.M1 (ix3 b n j) = h2 a b n j := by
  rw [Read.val_main_v19_apply, Read.val_main_v18_apply, Read.val_main_v15_apply, Read.val_main_v17_apply,
    Read.val_main_v16_apply, Read.val_main_call1_v0_apply, Read.val_main_call1_cst_apply, Ideal.maximumf_def,
    Ideal.addf_def, Ideal.ofBits_def, ofBits_zero, idx_b1]
  unfold h2 affine
  refine congrArg (max · 0) (congrArg (· + _) (Finset.sum_congr rfl fun k _ => ?_))
  rw [lidx_v15, v10_apply, Read.val_main_v14_apply, Read.val_main_v13_apply,
    Read.val_main_v12_apply, Read.val_main_v11_apply, Ideal.mulf_def, ridx_v15, idx_w1]
  rfl

/-! ## The third hidden layer -/

/-- The third contraction reads the layer before at (b, n, k). -/
theorem lidx_v24 (b : Fin 16) (n : Fin 4096) (j : Fin 1024) (k : Fin 1024) :
    Read.lidx_main_v24 (ix3 b n j) k = ix3 b n k :=
  funext fun a => Fin.ext (by match a with | ⟨0, _⟩ => rfl | ⟨1, _⟩ => rfl | ⟨2, _⟩ => rfl)

/-- And its right operand at (b, k, j). -/
theorem ridx_v24 (b : Fin 16) (n : Fin 4096) (j : Fin 1024) (k : Fin 1024) :
    Read.ridx_main_v24 (ix3 b n j) k = ix3 b k j :=
  funext fun a => Fin.ext (by match a with | ⟨0, _⟩ => rfl | ⟨1, _⟩ => rfl | ⟨2, _⟩ => rfl)

/-- The third weight, transposed and broadcast over the members, read at (b, k, j), is the weight at (j, k). -/
theorem idx_w2 (b : Fin 16) (k : Fin 1024) (j : Fin 1024) :
    Read.idx_main_v20 (Read.idx_main_v21 (Read.idx_main_v22 (ix3 b k j))) = ix2 j k :=
  funext fun a => Fin.ext (by match a with | ⟨0, _⟩ => rfl | ⟨1, _⟩ => rfl)

/-- The third bias, broadcast over members and rows, read at (b, n, j), is the bias at j. -/
theorem idx_b2 (b : Fin 16) (n : Fin 4096) (j : Fin 1024) :
    Read.idx_main_v25 (Read.idx_main_v26 (ix3 b n j)) = ix1 j :=
  funext fun a => Fin.ext (by match a with | ⟨0, _⟩ => rfl)

theorem v28_apply (a : Args) (b : Fin 16) (n : Fin 4096) (j : Fin 1024) :
    Read.val_main_v28 (F := Ideal) a.xy a.W0 a.b0 a.W1 a.b1 a.W2 a.b2 a.M0 a.M1 a.M2 (ix3 b n j) = h3 a b n j := by
  rw [Read.val_main_v28_apply, Read.val_main_v27_apply, Read.val_main_v24_apply, Read.val_main_v26_apply,
    Read.val_main_v25_apply, Read.val_main_call2_v0_apply, Read.val_main_call2_cst_apply, Ideal.maximumf_def,
    Ideal.addf_def, Ideal.ofBits_def, ofBits_zero, idx_b2]
  unfold h3 affine
  refine congrArg (max · 0) (congrArg (· + _) (Finset.sum_congr rfl fun k _ => ?_))
  rw [lidx_v24, v19_apply, Read.val_main_v23_apply, Read.val_main_v22_apply,
    Read.val_main_v21_apply, Read.val_main_v20_apply, Ideal.mulf_def, ridx_v24, idx_w2]
  rfl

/-! ## The output layer -/

/-- The last contraction reads the third hidden layer at (b, n, k). -/
theorem lidx_v33 (b : Fin 16) (n : Fin 4096) (p : Fin 64) (k : Fin 1024) :
    Read.lidx_main_v33 (ix3 b n p) k = ix3 b n k :=
  funext fun a => Fin.ext (by match a with | ⟨0, _⟩ => rfl | ⟨1, _⟩ => rfl | ⟨2, _⟩ => rfl)

/-- And its right operand at (b, k, p). -/
theorem ridx_v33 (b : Fin 16) (n : Fin 4096) (p : Fin 64) (k : Fin 1024) :
    Read.ridx_main_v33 (ix3 b n p) k = ix3 b k p :=
  funext fun a => Fin.ext (by match a with | ⟨0, _⟩ => rfl | ⟨1, _⟩ => rfl | ⟨2, _⟩ => rfl)

/-- The last weight, transposed and broadcast over the members, read at (b, k, p), is the weight at (p, k). -/
theorem idx_w3 (b : Fin 16) (k : Fin 1024) (p : Fin 64) :
    Read.idx_main_v29 (Read.idx_main_v30 (Read.idx_main_v31 (ix3 b k p))) = ix2 p k :=
  funext fun a => Fin.ext (by match a with | ⟨0, _⟩ => rfl | ⟨1, _⟩ => rfl)

/-- The last bias, broadcast over members and rows, read at (b, n, p), is the bias at p. -/
theorem idx_b3 (b : Fin 16) (n : Fin 4096) (p : Fin 64) :
    Read.idx_main_v34 (Read.idx_main_v35 (ix3 b n p)) = ix1 p :=
  funext fun a => Fin.ext (by match a with | ⟨0, _⟩ => rfl)

theorem v36_apply (a : Args) (b : Fin 16) (n : Fin 4096) (p : Fin 64) :
    Read.val_main_v36 (F := Ideal) a.xy a.W0 a.b0 a.W1 a.b1 a.W2 a.b2 a.W3 a.b3 a.M0 a.M1 a.M2 a.M3 (ix3 b n p) = out a b n p := by
  rw [Read.val_main_v36_apply, Read.val_main_v33_apply, Read.val_main_v35_apply, Read.val_main_v34_apply,
    Ideal.addf_def, idx_b3]
  unfold out affine
  refine congrArg (· + _) (Finset.sum_congr rfl fun k _ => ?_)
  rw [lidx_v33, v28_apply, Read.val_main_v32_apply, Read.val_main_v31_apply,
    Read.val_main_v30_apply, Read.val_main_v29_apply, Ideal.mulf_def, ridx_v33, idx_w3]
  rfl

/-! ## The mean over the members -/

/-- The member sum reads the outputs at (k, n, p). -/
theorem idx_v37 (n : Fin 4096) (p : Fin 64) (k : Fin 16) :
    Read.idx_main_v37 (ix2 n p) k = ix3 k n p :=
  funext fun a => Fin.ext (by match a with | ⟨0, _⟩ => rfl | ⟨1, _⟩ => rfl | ⟨2, _⟩ => rfl)

/-- The reference's result is the specification's function of the thirteen arguments: zero plus the sum of the
    sixteen outputs, divided by sixteen, is the sum times one sixteenth. -/
theorem ref_eq (x0 : (⟨S4096x96, .f32⟩ : BufTy).Contents (Elt Ideal)) (x1 : (⟨S1024x96, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S64x1024, .f32⟩ : BufTy).Contents (Elt Ideal)) (x8 : (⟨S64, .f32⟩ : BufTy).Contents (Elt Ideal)) (x9 : (⟨S16x96x1024, .f32⟩ : BufTy).Contents (Elt Ideal)) (x10 : (⟨S16x1024x1024, .f32⟩ : BufTy).Contents (Elt Ideal)) (x11 : (⟨S16x1024x1024, .f32⟩ : BufTy).Contents (Elt Ideal)) (x12 : (⟨S16x1024x64, .f32⟩ : BufTy).Contents (Elt Ideal)) :
    Read.val_main_v39 (F := Ideal) x0 x1 x2 x3 x4 x5 x6 x7 x8 x9 x10 x11 x12 = Cert.MaskedMlp.G ⟨x0, x1, x2, x3, x4, x5, x6, x7, x8, x9, x10, x11, x12⟩ := by
  funext i
  obtain ⟨n, p, rfl⟩ : ∃ (n : Fin 4096) (p : Fin 64), i = ix2 n p := ⟨i 0, i 1, eq_ix2 i⟩
  rw [Read.val_main_v39_apply, Read.val_main_v37_apply, Read.val_main_v38_apply, Read.val_main_cst_0_apply,
    Read.val_main_cst_apply, Ideal.hostDivf_def]
  simp only [Ideal.ofBits_def]
  rw [ofBits_zero, ofBits_sixteen, div_sixteen, zero_add]
  unfold G
  refine congrArg (· * c16) (Finset.sum_congr rfl fun k _ => ?_)
  rw [idx_v37]
  exact v36_apply ⟨x0, x1, x2, x3, x4, x5, x6, x7, x8, x9, x10, x11, x12⟩ k n p

/-! ## The reference's run -/

/-- Every weakly fair execution of the reference terminates with its result at the specification's function of the
    arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39) = Cert.MaskedMlp.G ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12)⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (by rw [Read.val_main_v39_eq, ref_eq]), (h c).2⟩)
    (Value.run (F := Ideal) m ρ)

end Cert.ReferenceIdeal.RefValue

end
-- ==== Proof.Trip.lean ====
/-
  The row-chunk loop of the kernel body, read as values.

  The body walks the 4096 rows in eight chunks of 512.  Trip k loads rows 512k … 512k+511 of the input, pushes them through
  the four masked layers and ADDS the result to the same rows of the accumulator, which it first loads back.  So trip k
  leaves one piece: the rows of chunk k, holding a function of the operand blocks and of the accumulator's rows of chunk k
  as the trip found them.  The chunks are disjoint, so what trip k finds in its rows is what the accumulator held when the
  loop was entered: every piece of the loop is a function of the loop-entry contents alone.
-/
import proofs.«172082_j82995948027952_1_alg».proof.Proof.Gen.KernelIdeal.Loops
import Idealize.ShloMosaic.Lib.WholeRead
import Idealize.ShloMosaic.Lib.Pipeline.Value

noncomputable section

namespace Cert.KernelIdeal.Trip

open Idealize.ShloMosaic Idealize.ShloMosaic.TcCoe Idealize.ShloMosaic.Tactic
open Idealize.SL Idealize.SL.Sem
open Cert.KernelIdeal Cert.KernelIdeal.Gen

variable {F : FTy → Type} [FloatOps F]

/-- The accumulator rows of chunk `k`. -/
abbrev rows (k : Fin k0_t1_loop.trips) : Rect S4096x64 := Rect.unit (k0_off2 k) S512x64.size (k0_off2_inb k)
/-- The input rows of chunk `k`. -/
abbrev xrows (k : Fin k0_t1_loop.trips) : Rect S4096x96 := Rect.unit (k0_off1 k) S512x96.size (k0_off1_inb k)

/-- Chunks are disjoint: an earlier chunk's rows all lie below a later chunk's. -/
theorem rows_disjoint {j k : Fin k0_t1_loop.trips} (h : j.val < k.val) : Disjoint (rows j).set (rows k).set := by
  refine Rect.unit_disjoint (0 : Fin 2) (Or.inl ?_)
  rw [k0_off2_eq j, k0_off2_eq k]
  show 512 * j.val + 512 ≤ 512 * k.val
  omega

/-- The first two hidden layers of chunk `k`, from the operand blocks. -/
abbrev hidden2 (x0 : Vec F S4096x96 .f32) (x1 : Vec F S96x1024 .f32) (x2 : Vec F S1x1024 .f32) (x3 : Vec F S1024x1024 .f32)
    (x4 : Vec F S1x1024 .f32) (x9 : Vec F S1x96x1024 .f32) (x10 : Vec F S1x1024x1024 .f32) (k : Fin k0_t1_loop.trips) : FVec F S512x1024 .f32 :=
  k0_pay4 (View.ld x0 (xrows k)) x1 x9 x2 x3 x10 x4

/-- What trip `k` stores into its rows, from the operand blocks and the accumulator rows `acc` it loaded back. -/
abbrev stored (x0 : Vec F S4096x96 .f32) (x1 : Vec F S96x1024 .f32) (x2 : Vec F S1x1024 .f32) (x3 : Vec F S1024x1024 .f32) (x4 : Vec F S1x1024 .f32) (x5 : Vec F S1024x1024 .f32) (x6 : Vec F S1x1024 .f32) (x7 : Vec F S1024x64 .f32) (x8 : Vec F S1x64 .f32) (x9 : Vec F S1x96x1024 .f32) (x10 : Vec F S1x1024x1024 .f32) (x11 : Vec F S1x1024x1024 .f32) (x12 : Vec F S1x1024x64 .f32) (k : Fin k0_t1_loop.trips) (acc : Vec F S512x64 .f32) : FVec F S512x64 .f32 :=
  k0_pay2 (hidden2 x0 x1 x2 x3 x4 x9 x10 k) x5 x11 x6 x7 x12 x8 acc

section
variable (𝒱 : Variants) (c : Dev nD) (bd : Option 𝒱.V) (i : grid0.Coords) (arg2 : Memref sig .tc .vmem S4096x96 .f32) (harg2 : arg2.IsWhole) (arg3 : Memref sig .tc .vmem S96x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x64 .f32) (harg9 : arg9.IsWhole) (arg10 : Memref sig .tc .vmem S1x64 .f32) (harg10 : arg10.IsWhole) (arg11 : Memref sig .tc .vmem S1x96x1024 .f32) (harg11 : arg11.IsWhole) (arg12 : Memref sig .tc .vmem S1x1024x1024 .f32) (harg12 : arg12.IsWhole) (arg13 : Memref sig .tc .vmem S1x1024x1024 .f32) (harg13 : arg13.IsWhole) (arg14 : Memref sig .tc .vmem S1x1024x64 .f32) (harg14 : arg14.IsWhole) (arg15 : Memref sig .tc .vmem S1x4096x64 .f32) (harg15 : arg15.IsWhole) (arg16 : Memref sig .tc .vmem S4096x64 .f32) (harg16 : arg16.IsWhole)
variable (x0 : Vec F S4096x96 .f32) (x1 : Vec F S96x1024 .f32) (x2 : Vec F S1x1024 .f32) (x3 : Vec F S1024x1024 .f32) (x4 : Vec F S1x1024 .f32) (x5 : Vec F S1024x1024 .f32) (x6 : Vec F S1x1024 .f32) (x7 : Vec F S1024x64 .f32) (x8 : Vec F S1x64 .f32) (x9 : Vec F S1x96x1024 .f32) (x10 : Vec F S1x1024x1024 .f32) (x11 : Vec F S1x1024x1024 .f32) (x12 : Vec F S1x1024x64 .f32)

theorem zero2 : (![0, 0] : Fin 2 → Nat) = fun _ => 0 := by
  funext a; match a with | ⟨0, _⟩ => rfl | ⟨1, _⟩ => rfl
theorem zero3 : (![0, 0, 0] : Fin 3 → Nat) = fun _ => 0 := by
  funext a; match a with | ⟨0, _⟩ => rfl | ⟨1, _⟩ => rfl | ⟨2, _⟩ => rfl

/-- Trip `k`'s one piece, the operands held whole at `x0 … x12`: its rows, at what the layers make of them. -/
theorem trip_piece (k : Fin k0_t1_loop.trips) (f : BufTy.Contents (Elt F) arg16.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) k f
      = [⟨rows k, stored x0 x1 x2 x3 x4 x5 x6 x7 x8 x9 x10 x11 x12 k (View.readAt (Elt F) arg16.view (rows k).toLoadRect f)⟩] := by
  unfold tripL_k0_t1 trip_k0_t1
  dsimp only
  sl_unfold_run_names
  simp only [View.readAt_eq_ld, Memref.IsWhole.read_unread, View.ld_unit_zero (S := S96x1024) zero2,
    View.ld_unit_zero (S := S1x96x1024) zero3, View.ld_unit_zero (S := S1x1024) zero2, View.ld_unit_zero (S := S1024x1024) zero2,
    View.ld_unit_zero (S := S1x1024x1024) zero3, View.ld_unit_zero (S := S1024x64) zero2, View.ld_unit_zero (S := S1x1024x64) zero3,
    View.ld_unit_zero (S := S1x64) zero2]

/-- Every piece of the trips before `k` is an earlier trip's rows at what that trip makes of the LOOP-ENTRY contents `G` of
    its rows: the chunks are disjoint, so the earlier trips' stores do not reach the rows a trip loads back. -/
theorem pieces_before (G : BufTy.Contents (Elt F) arg16.view.ty) :
    ∀ k : Nat, k ≤ k0_t1_loop.trips →
      ∀ pc ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) G k,
        ∃ j : Fin k0_t1_loop.trips, j.val < k ∧
          pc = ⟨rows j, stored x0 x1 x2 x3 x4 x5 x6 x7 x8 x9 x10 x11 x12 j (View.readAt (Elt F) arg16.view (rows j).toLoadRect G)⟩ := by
  intro k
  induction k with
  | zero =>
    intro _ pc hpc
    rw [pb_k0_t1.eq_1] at hpc
    exact absurd hpc (List.not_mem_nil)
  | succ k ih =>
    intro hk pc hpc
    have hk' : k < k0_t1_loop.trips := hk
    have ih' := ih (Nat.le_of_lt hk')
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) G ⟨k, hk'⟩, trip_piece] at hpc
    rcases List.mem_append.mp hpc with hnew | hold
    · rw [List.mem_singleton] at hnew
      refine ⟨⟨k, hk'⟩, Nat.lt_succ_self k, ?_⟩
      rw [hnew]
      congr 2
      refine View.readAt_writes_of_forall_not_mem _ _ _ _ fun x p hp hmem => ?_
      obtain ⟨j, hj, rfl⟩ := ih' p hp
      exact Finset.disjoint_left.mp (rows_disjoint (j := j) (k := ⟨k, hk'⟩) hj) hmem ((rows ⟨k, hk'⟩).toLoadRect.idx_mem x)
    · obtain ⟨j, hj, e⟩ := ih' pc hold
      exact ⟨j, Nat.lt_succ_of_lt hj, e⟩

/-- Conversely every earlier trip's rows are among the pieces, so after the last trip the pieces cover the accumulator. -/
theorem rows_before (G : BufTy.Contents (Elt F) arg16.view.ty) :
    ∀ k : Nat, k ≤ k0_t1_loop.trips → ∀ j : Fin k0_t1_loop.trips, j.val < k →
      ∃ pc ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) G k, pc.1 = rows j := by
  intro k
  induction k with
  | zero => intro _ j hj; exact absurd hj (Nat.not_lt_zero _)
  | succ k ih =>
    intro hk j hj
    have hk' : k < k0_t1_loop.trips := hk
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) G ⟨k, hk'⟩, trip_piece]
    rcases Nat.lt_succ_iff_lt_or_eq.mp hj with hlt | heq
    · obtain ⟨pc, hpc, e⟩ := ih (Nat.le_of_lt hk') j hlt
      exact ⟨pc, List.mem_append_right _ hpc, e⟩
    · refine ⟨_, List.mem_append_left _ (List.mem_singleton.mpr rfl), ?_⟩
      show rows ⟨k, hk'⟩ = rows j
      congr 1
      exact Fin.ext heq.symm

end

/-- The loop makes eight trips. -/
theorem trips_eq : k0_t1_loop.trips = 8 := by decide +kernel

/-- An index lies in chunk `j`'s rows exactly when its row does. -/
theorem mem_rows (j : Fin k0_t1_loop.trips) (y : S4096x64.Idx) :
    y ∈ (rows j).set ↔ 512 * j.val ≤ (y 0).val ∧ (y 0).val < 512 * j.val + 512 := by
  rw [Rect.mem_set_unit, k0_off2_eq j]
  constructor
  · intro h; exact h 0
  · intro h a
    match a with
    | ⟨0, _⟩ => exact h
    | ⟨1, _⟩ => exact ⟨Nat.zero_le _, by have h64 : (y 1).val < 64 := (y 1).isLt; show (y 1).val < 0 + 64; omega⟩

end Cert.KernelIdeal.Trip

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Payload.lean ====
/-
  The kernel body's arithmetic read at one element.

  One grid step holds a 512-row chunk of the input and one ensemble member's masks.  Each masked layer is a matrix
  product into a zero accumulator of the rows with the entrywise product "weight times mask", plus a bias row laid down
  the rows; over the extended reals the narrowing casts in front of the product are the identity, so at (r, j) a layer is
  Σₖ x(r, k) · (w(k, j) · m(0, k, j)) + b(0, j),  which is the specification's block form of an affine layer.  The relu is
  a maximum with the zero splat.  The four values the body stores or carries are then: the zero accumulator, two layers
  with their relus, two more layers (the second without relu) added to the running sum, and the sum scaled by 1/16.
-/
import proofs.«172082_j82995948027952_1_alg».proof.Proof.Gen.KernelIdeal.Skeleton
import proofs.«172082_j82995948027952_1_alg».proof.Proof.Spec
import proofs.«172082_j82995948027952_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.MaskedMlp

/-- ONE MASKED LAYER AT AN INDEX: the product of the rows `x` with the entrywise product of the weight and the mask block
    (recast from [1, I, O] to [I, O]), into the zero accumulator, plus the bias row laid down the rows, is at (r, j) the
    block form of the affine layer on row r. The narrowing casts are the identity on extended reals, the weight's and
    the bias row's casts to their own shapes are the identity, and the mask block's cast reads (0, k, j) at (k, j). -/
theorem layer_apply {M I O : Nat} (x : FVec Ideal ⟨2, ![M, I]⟩ .f32) (w : FVec Ideal ⟨2, ![I, O]⟩ .f32)
    (mk : FVec Ideal ⟨3, ![1, I, O]⟩ .f32) (br : FVec Ideal ⟨2, ![1, O]⟩ .f32)
    (hw : (⟨2, ![I, O]⟩ : Shape).ShapeCasts ⟨2, ![I, O]⟩) (hm : (⟨3, ![1, I, O]⟩ : Shape).ShapeCasts ⟨2, ![I, O]⟩)
    (hb : (⟨2, ![1, O]⟩ : Shape).ShapeCasts ⟨2, ![1, O]⟩) (hbc : (⟨2, ![1, O]⟩ : Shape).Broadcasts ⟨2, ![M, O]⟩)
    (hlt : FTy.bits .bf16 < FTy.bits .f32) (r : Fin M) (j : Fin O) :
    addf (matmul (DotDims.plain M I O) none (truncf .bf16 x hlt)
        (truncf .bf16 (mulf (shapeCast ⟨2, ![I, O]⟩ w hw) (shapeCast ⟨2, ![I, O]⟩ mk hm)) hlt)
        (constant (F := Ideal) ⟨2, ![M, O]⟩ .f32 0x00000000#32))
      (broadcastTo ⟨2, ![M, O]⟩ (shapeCast ⟨2, ![1, O]⟩ br hb) hbc) (ix2 r j)
      = blockAffine (fun k => x (ix2 r k)) w mk br j := by
  rw [addf_apply, shapeCast_self br hb, broadcastTo_1b_ab_apply]
  unfold blockAffine
  refine congrArg (· + _) ?_
  refine (Cert.LibPlainDot.matmul_plain_zero none _ _ (ix2 r j)).trans ?_
  refine Finset.sum_congr rfl fun k _ => ?_
  show x (ix2 r k) * (shapeCast ⟨2, ![I, O]⟩ w hw (ix2 k j) * shapeCast ⟨2, ![I, O]⟩ mk hm (ix2 k j))
    = x (ix2 r k) * (w (ix2 k j) * mk (ix3 (0 : Fin 1) k j))
  rw [shapeCast_1ab_ab_apply, shapeCast_self w hw]

/-- The relu: a maximum with the splat of `+0.0` is, at an index, the maximum with 0. -/
theorem relu_apply {s : Shape} (a : FVec Ideal s .f32) (i : s.Idx) :
    maximumf a (broadcast s (Scalar.ofBits (F := Ideal) .f32 0x00000000#32)) i = max (a i) 0 := by
  rw [maximumf_apply, broadcast_apply]
  exact congrArg (max (a i)) ofBits_zero

/-- The accumulator's initial value is 0 everywhere. -/
theorem pay1_apply (i : S4096x64.Idx) : k0_pay1 (F := Ideal) i = 0 := by
  unfold k0_pay1
  rw [shapeCast_self]
  exact ofBits_zero

/-- The first two layers on a chunk: relu of the second masked layer applied to relu of the first. -/
theorem pay4_apply (v12 : Vec Ideal S512x96 .f32) (v13 : Vec Ideal S96x1024 .f32) (v15 : Vec Ideal S1x96x1024 .f32)
    (v21 : Vec Ideal S1x1024 .f32) (v27 : Vec Ideal S1024x1024 .f32) (v29 : Vec Ideal S1x1024x1024 .f32)
    (v35 : Vec Ideal S1x1024 .f32) (r : Fin 512) (j : Fin 1024) :
    k0_pay4 (F := Ideal) v12 v13 v15 v21 v27 v29 v35 (ix2 r j)
      = max (blockAffine (fun k => max (blockAffine (fun k' => v12 (ix2 r k')) v13 v15 v21 k) 0) v27 v29 v35 j) 0 := by
  unfold k0_pay4
  refine (relu_apply _ (ix2 r j)).trans ?_
  refine congrArg (max · 0) ?_
  refine (layer_apply (M := 512) (I := 1024) (O := 1024) _ v27 v29 v35 _ _ _ _ _ r j).trans ?_
  refine congrArg (fun x => blockAffine x v27 v29 v35 j) ?_
  funext k
  refine (relu_apply _ (ix2 r k)).trans ?_
  refine congrArg (max · 0) ?_
  exact layer_apply (M := 512) (I := 96) (O := 1024) v12 v13 v15 v21 _ _ _ _ _ r k

/-- The last two layers on a chunk, added to the running sum: the third masked layer with its relu, then the affine
    output layer. -/
theorem pay2_apply (v40 : FVec Ideal S512x1024 .f32) (v41 : Vec Ideal S1024x1024 .f32) (v43 : Vec Ideal S1x1024x1024 .f32)
    (v49 : Vec Ideal S1x1024 .f32) (v55 : Vec Ideal S1024x64 .f32) (v57 : Vec Ideal S1x1024x64 .f32)
    (v63 : Vec Ideal S1x64 .f32) (v68 : Vec Ideal S512x64 .f32) (r : Fin 512) (p : Fin 64) :
    k0_pay2 (F := Ideal) v40 v41 v43 v49 v55 v57 v63 v68 (ix2 r p)
      = v68 (ix2 r p) + blockAffine (fun k => max (blockAffine (fun k' => v40 (ix2 r k')) v41 v43 v49 k) 0) v55 v57 v63 p := by
  unfold k0_pay2
  rw [shapeCast_self, addf_apply]
  refine congrArg (v68 (ix2 r p) + ·) ?_
  refine (layer_apply (M := 512) (I := 1024) (O := 64) _ v55 v57 v63 _ _ _ _ _ r p).trans ?_
  refine congrArg (fun x => blockAffine x v55 v57 v63 p) ?_
  funext k
  refine (relu_apply _ (ix2 r k)).trans ?_
  refine congrArg (max · 0) ?_
  exact layer_apply (M := 512) (I := 1024) (O := 1024) v40 v41 v43 v49 _ _ _ _ _ r k

/-- The stored mean: the running sum recast with a leading unit axis and scaled by 1/16. -/
theorem pay3_apply (v7 : Vec Ideal S4096x64 .f32) (n : Fin 4096) (p : Fin 64) :
    k0_pay3 (F := Ideal) v7 (ix3 (0 : Fin 1) n p) = v7 (ix2 n p) * c16 := by
  unfold k0_pay3
  refine (shapeCast_ab_1ab_apply _ _ (0 : Fin 1) n p).trans ?_
  rw [mulf_apply, broadcast_apply]
  exact congrArg (v7 (ix2 n p) * ·) ofBits_sixteenth

end Cert.KernelIdeal.Payload

end
-- ==== Proof.SpecBlocks.lean ====
/-
  One grid step's contribution, from the operand blocks the step holds.

  A grid step works on one ensemble member: it holds the whole input, the four transposed weights, the four bias rows and
  that member's four masks as one-member blocks.  From these the member's output at a row is the same four masked layers as
  in the specification; this module states it over the blocks and identifies it with the specification's member output.
-/
import proofs.«172082_j82995948027952_1_alg».proof.Proof.Spec

noncomputable section

namespace Cert.MaskedMlp

open Idealize.ShloMosaic Idealize.ShloMosaic.ValueIdx

/-- The second hidden layer at row `n`, from the blocks of the first two layers. -/
def bh2 (x0 : FVec Ideal ⟨2, ![4096, 96]⟩ .f32) (x1 : FVec Ideal ⟨2, ![96, 1024]⟩ .f32) (x2 : FVec Ideal ⟨2, ![1, 1024]⟩ .f32) (x3 : FVec Ideal ⟨2, ![1024, 1024]⟩ .f32) (x4 : FVec Ideal ⟨2, ![1, 1024]⟩ .f32)
    (x9 : FVec Ideal ⟨3, ![1, 96, 1024]⟩ .f32) (x10 : FVec Ideal ⟨3, ![1, 1024, 1024]⟩ .f32) (n : Fin 4096) (j : Fin 1024) : EReal :=
  max (blockAffine (fun k => max (blockAffine (fun k' => (x0 (ix2 n k') : EReal)) x1 x9 x2 k) 0) x3 x10 x4 j) 0

/-- The member's output at (n, p), from all thirteen blocks. -/
def bout (x0 : FVec Ideal ⟨2, ![4096, 96]⟩ .f32) (x1 : FVec Ideal ⟨2, ![96, 1024]⟩ .f32) (x2 : FVec Ideal ⟨2, ![1, 1024]⟩ .f32) (x3 : FVec Ideal ⟨2, ![1024, 1024]⟩ .f32) (x4 : FVec Ideal ⟨2, ![1, 1024]⟩ .f32) (x5 : FVec Ideal ⟨2, ![1024, 1024]⟩ .f32) (x6 : FVec Ideal ⟨2, ![1, 1024]⟩ .f32) (x7 : FVec Ideal ⟨2, ![1024, 64]⟩ .f32) (x8 : FVec Ideal ⟨2, ![1, 64]⟩ .f32) (x9 : FVec Ideal ⟨3, ![1, 96, 1024]⟩ .f32) (x10 : FVec Ideal ⟨3, ![1, 1024, 1024]⟩ .f32) (x11 : FVec Ideal ⟨3, ![1, 1024, 1024]⟩ .f32) (x12 : FVec Ideal ⟨3, ![1, 1024, 64]⟩ .f32) (n : Fin 4096) (p : Fin 64) : EReal :=
  blockAffine (fun k => max (blockAffine (bh2 x0 x1 x2 x3 x4 x9 x10 n) x5 x11 x6 k) 0) x7 x12 x8 p

/-- When the blocks are the input, the transposed weights, the bias rows and member `b`'s masks, the step's contribution
    is the specification's output of member `b`. -/
theorem bout_eq_out (a : Args) (b : Fin 16) (x0 : FVec Ideal ⟨2, ![4096, 96]⟩ .f32) (x1 : FVec Ideal ⟨2, ![96, 1024]⟩ .f32) (x2 : FVec Ideal ⟨2, ![1, 1024]⟩ .f32) (x3 : FVec Ideal ⟨2, ![1024, 1024]⟩ .f32) (x4 : FVec Ideal ⟨2, ![1, 1024]⟩ .f32) (x5 : FVec Ideal ⟨2, ![1024, 1024]⟩ .f32) (x6 : FVec Ideal ⟨2, ![1, 1024]⟩ .f32) (x7 : FVec Ideal ⟨2, ![1024, 64]⟩ .f32) (x8 : FVec Ideal ⟨2, ![1, 64]⟩ .f32) (x9 : FVec Ideal ⟨3, ![1, 96, 1024]⟩ .f32) (x10 : FVec Ideal ⟨3, ![1, 1024, 1024]⟩ .f32) (x11 : FVec Ideal ⟨3, ![1, 1024, 1024]⟩ .f32) (x12 : FVec Ideal ⟨3, ![1, 1024, 64]⟩ .f32)
    (e0 : ∀ n k, x0 (ix2 n k) = a.xy (ix2 n k))
    (e1 : ∀ k j, x1 (ix2 k j) = a.W0 (ix2 j k)) (e2 : ∀ j, x2 (ix2 (0 : Fin 1) j) = a.b0 (ix1 j))
    (e3 : ∀ k j, x3 (ix2 k j) = a.W1 (ix2 j k)) (e4 : ∀ j, x4 (ix2 (0 : Fin 1) j) = a.b1 (ix1 j))
    (e5 : ∀ k j, x5 (ix2 k j) = a.W2 (ix2 j k)) (e6 : ∀ j, x6 (ix2 (0 : Fin 1) j) = a.b2 (ix1 j))
    (e7 : ∀ k j, x7 (ix2 k j) = a.W3 (ix2 j k)) (e8 : ∀ j, x8 (ix2 (0 : Fin 1) j) = a.b3 (ix1 j))
    (e9 : ∀ k j, x9 (ix3 (0 : Fin 1) k j) = a.M0 (ix3 b k j)) (e10 : ∀ k j, x10 (ix3 (0 : Fin 1) k j) = a.M1 (ix3 b k j))
    (e11 : ∀ k j, x11 (ix3 (0 : Fin 1) k j) = a.M2 (ix3 b k j)) (e12 : ∀ k j, x12 (ix3 (0 : Fin 1) k j) = a.M3 (ix3 b k j))
    (n : Fin 4096) (p : Fin 64) :
    bout x0 x1 x2 x3 x4 x5 x6 x7 x8 x9 x10 x11 x12 n p = out a b n p := by
  have H1 : (fun k => max (blockAffine (fun k' => (x0 (ix2 n k') : EReal)) x1 x9 x2 k) 0) = h1 a b n := by
    funext k
    unfold h1
    rw [blockAffine_eq_affine _ a.W0 a.M0 a.b0 b x1 x9 x2 e1 e9 e2 k]
    congr 2
    funext k'
    exact e0 n k'
  have H2 : bh2 x0 x1 x2 x3 x4 x9 x10 n = h2 a b n := by
    funext j
    unfold bh2 h2
    rw [H1, blockAffine_eq_affine _ a.W1 a.M1 a.b1 b x3 x10 x4 e3 e10 e4 j]
  have H3 : (fun k => max (blockAffine (bh2 x0 x1 x2 x3 x4 x9 x10 n) x5 x11 x6 k) 0) = h3 a b n := by
    funext k
    unfold h3
    rw [H2, blockAffine_eq_affine _ a.W2 a.M2 a.b2 b x5 x11 x6 e5 e11 e6 k]
  unfold bout out
  rw [H3, blockAffine_eq_affine _ a.W3 a.M3 a.b3 b x7 x12 x8 e7 e12 e8 p]

end Cert.MaskedMlp

end
-- ==== Proof.Scratch.lean ====
/-
  What one grid step leaves in the accumulator and in the output block, as functions of the operand blocks.

  The loop's pieces are the eight row chunks; chunk k holds, at (r, p), what the accumulator held at row 512k + r when the
  loop was entered plus the member's output at that row.  So whatever the step found in the accumulator, it leaves the same
  contents plus the member's output, row by row: the first step of a core's eight first stores zeros, so it leaves the
  member's output alone; the last step also stores the accumulator times 1/16 into the output block.
-/
import proofs.«172082_j82995948027952_1_alg».proof.Proof.Gen.KernelIdeal.Frame
import proofs.«172082_j82995948027952_1_alg».proof.Proof.Trip
import proofs.«172082_j82995948027952_1_alg».proof.Proof.Payload
import proofs.«172082_j82995948027952_1_alg».proof.Proof.SpecBlocks

set_option maxRecDepth 16384

noncomputable section

namespace Cert.KernelIdeal.Scratch

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Trip Cert.KernelIdeal.Payload Cert.MaskedMlp

section
variable (𝒱 : Variants) (c : Dev nD) (bd : Option 𝒱.V) (i : grid0.Coords) (arg2 : Memref sig .tc .vmem S4096x96 .f32) (harg2 : arg2.IsWhole) (arg3 : Memref sig .tc .vmem S96x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x64 .f32) (harg9 : arg9.IsWhole) (arg10 : Memref sig .tc .vmem S1x64 .f32) (harg10 : arg10.IsWhole) (arg11 : Memref sig .tc .vmem S1x96x1024 .f32) (harg11 : arg11.IsWhole) (arg12 : Memref sig .tc .vmem S1x1024x1024 .f32) (harg12 : arg12.IsWhole) (arg13 : Memref sig .tc .vmem S1x1024x1024 .f32) (harg13 : arg13.IsWhole) (arg14 : Memref sig .tc .vmem S1x1024x64 .f32) (harg14 : arg14.IsWhole) (arg15 : Memref sig .tc .vmem S1x4096x64 .f32) (harg15 : arg15.IsWhole) (arg16 : Memref sig .tc .vmem S4096x64 .f32) (harg16 : arg16.IsWhole)
variable (x0 : Vec Ideal S4096x96 .f32) (x1 : Vec Ideal S96x1024 .f32) (x2 : Vec Ideal S1x1024 .f32) (x3 : Vec Ideal S1024x1024 .f32) (x4 : Vec Ideal S1x1024 .f32) (x5 : Vec Ideal S1024x1024 .f32) (x6 : Vec Ideal S1x1024 .f32) (x7 : Vec Ideal S1024x64 .f32) (x8 : Vec Ideal S1x64 .f32) (x9 : Vec Ideal S1x96x1024 .f32) (x10 : Vec Ideal S1x1024x1024 .f32) (x11 : Vec Ideal S1x1024x1024 .f32) (x12 : Vec Ideal S1x1024x64 .f32)

/-- Row r of chunk k of the input is row 512k + r. -/
theorem xrows_idx (k : Fin k0_t1_loop.trips) (r : Fin 512) (q : Fin 96) (hn : 512 * k.val + r.val < 4096) :
    (xrows k).toLoadRect.idx (ix2 r q) = ix2 (⟨512 * k.val + r.val, hn⟩ : Fin 4096) q := by
  funext a
  refine Fin.ext ?_
  match a with
  | ⟨0, _⟩ =>
    show k0_off1 k 0 + 1 * r.val = 512 * k.val + r.val
    rw [k0_off1_eq k]; show 512 * k.val + 1 * r.val = _; omega
  | ⟨1, _⟩ =>
    show k0_off1 k 1 + 1 * q.val = q.val
    rw [k0_off1_eq k]; show 0 + 1 * q.val = _; omega

/-- Chunk k's second hidden layer at its row r is the whole input's at row 512k + r. -/
theorem hidden2_apply (k : Fin k0_t1_loop.trips) (r : Fin 512) (j : Fin 1024) (hn : 512 * k.val + r.val < 4096) :
    hidden2 (F := Ideal) x0 x1 x2 x3 x4 x9 x10 k (ix2 r j) = bh2 x0 x1 x2 x3 x4 x9 x10 ⟨512 * k.val + r.val, hn⟩ j := by
  show k0_pay4 (F := Ideal) (View.ld x0 (xrows k)) x1 x9 x2 x3 x10 x4 (ix2 r j) = _
  rw [pay4_apply]
  unfold bh2
  have e : (fun k' : Fin 96 => (View.ld x0 (xrows k) (ix2 r k') : EReal)) = fun k' => (x0 (ix2 (⟨512 * k.val + r.val, hn⟩ : Fin 4096) k') : EReal) := by
    funext k'
    show x0 ((xrows k).toLoadRect.idx (ix2 r k')) = _
    rw [xrows_idx k r k' hn]
  rw [e]

/-- What trip k stores at (r, p): what it loaded back there plus the member's output at row 512k + r. -/
theorem stored_apply (k : Fin k0_t1_loop.trips) (acc : Vec Ideal S512x64 .f32) (r : Fin 512) (p : Fin 64) (hn : 512 * k.val + r.val < 4096) :
    stored (F := Ideal) x0 x1 x2 x3 x4 x5 x6 x7 x8 x9 x10 x11 x12 k acc (ix2 r p) = acc (ix2 r p) + bout x0 x1 x2 x3 x4 x5 x6 x7 x8 x9 x10 x11 x12 ⟨512 * k.val + r.val, hn⟩ p := by
  show k0_pay2 (F := Ideal) (hidden2 x0 x1 x2 x3 x4 x9 x10 k) x5 x11 x6 x7 x12 x8 acc (ix2 r p) = _
  rw [pay2_apply]
  unfold bout
  have e : (fun k' : Fin 1024 => (hidden2 (F := Ideal) x0 x1 x2 x3 x4 x9 x10 k (ix2 r k') : EReal)) = bh2 x0 x1 x2 x3 x4 x9 x10 ⟨512 * k.val + r.val, hn⟩ := by
    funext k'
    exact hidden2_apply x0 x1 x2 x3 x4 x9 x10 k r k' hn
  rw [e]

/-- After the loop, read through any view over any earlier contents: the loop-entry contents `G` plus the member's output. -/
theorem loop_read {sig' : RefSig} {κ' : Kind} {sp' : Space} (G : BufTy.Contents (Elt Ideal) arg16.view.ty)
    (v' : View sig' κ' sp' S4096x64 .f32) (f' : v'.ty.Contents (Elt Ideal)) (y : S4096x64.Idx) :
    v'.read (Elt Ideal) (v'.writes (Elt Ideal) f' (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) G k0_t1_loop.trips)) y
      = arg16.view.read (Elt Ideal) G y + bout x0 x1 x2 x3 x4 x5 x6 x7 x8 x9 x10 x11 x12 (y 0) (y 1) := by
  refine View.read_writes_apply_of_pieces v' f' (fun y => arg16.view.read (Elt Ideal) G y + bout x0 x1 x2 x3 x4 x5 x6 x7 x8 x9 x10 x11 x12 (y 0) (y 1)) _ ?_ y ?_
  · intro pc hpc x
    obtain ⟨j, hj, rfl⟩ := pieces_before (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 G _ (le_refl _) pc hpc
    obtain ⟨r, p, rfl⟩ : ∃ (r : Fin 512) (p : Fin 64), x = ix2 r p := ⟨x 0, x 1, eq_ix2 x⟩
    have hj8 : j.val < 8 := lt_of_lt_of_eq j.isLt trips_eq
    have hn : 512 * j.val + r.val < 4096 := by have := r.isLt; omega
    show stored (F := Ideal) x0 x1 x2 x3 x4 x5 x6 x7 x8 x9 x10 x11 x12 j (View.readAt (Elt Ideal) arg16.view (rows j).toLoadRect G) (ix2 r p) = _
    rw [stored_apply x0 x1 x2 x3 x4 x5 x6 x7 x8 x9 x10 x11 x12 j _ r p hn]
    have e0 : (rows j).emb (ix2 r p) 0 = (⟨512 * j.val + r.val, hn⟩ : Fin 4096) := Fin.ext (by
      show k0_off2 j 0 + 1 * r.val = 512 * j.val + r.val
      rw [k0_off2_eq j]; show 512 * j.val + 1 * r.val = _; omega)
    have e1 : (rows j).emb (ix2 r p) 1 = p := Fin.ext (by
      show k0_off2 j 1 + 1 * p.val = p.val
      rw [k0_off2_eq j]; show 0 + 1 * p.val = _; omega)
    show _ = arg16.view.read (Elt Ideal) G ((rows j).emb (ix2 r p)) + bout x0 x1 x2 x3 x4 x5 x6 x7 x8 x9 x10 x11 x12 ((rows j).emb (ix2 r p) 0) ((rows j).emb (ix2 r p) 1)
    rw [e0, e1]
    rfl
  · have hy0 : (y 0).val < 4096 := (y 0).isLt
    have hy : (y 0).val / 512 < k0_t1_loop.trips := by rw [trips_eq]; omega
    obtain ⟨pc, hpc, e⟩ := rows_before (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 G _ (le_refl _) ⟨(y 0).val / 512, hy⟩ hy
    refine ⟨pc, hpc, ?_⟩
    rw [e, mem_rows]
    constructor
    · show 512 * ((y 0).val / 512) ≤ (y 0).val; omega
    · show (y 0).val < 512 * ((y 0).val / 512) + 512; omega

end

section
variable (c : Dev nD) (i : grid0.Coords) (arg2 : Memref sig .tc .vmem S4096x96 .f32) (harg2 : arg2.IsWhole) (arg3 : Memref sig .tc .vmem S96x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x64 .f32) (harg9 : arg9.IsWhole) (arg10 : Memref sig .tc .vmem S1x64 .f32) (harg10 : arg10.IsWhole) (arg11 : Memref sig .tc .vmem S1x96x1024 .f32) (harg11 : arg11.IsWhole) (arg12 : Memref sig .tc .vmem S1x1024x1024 .f32) (harg12 : arg12.IsWhole) (arg13 : Memref sig .tc .vmem S1x1024x1024 .f32) (harg13 : arg13.IsWhole) (arg14 : Memref sig .tc .vmem S1x1024x64 .f32) (harg14 : arg14.IsWhole) (arg15 : Memref sig .tc .vmem S1x4096x64 .f32) (harg15 : arg15.IsWhole) (arg16 : Memref sig .tc .vmem S4096x64 .f32) (harg16 : arg16.IsWhole)
variable (x0 : Vec Ideal S4096x96 .f32) (x1 : Vec Ideal S96x1024 .f32) (x2 : Vec Ideal S1x1024 .f32) (x3 : Vec Ideal S1024x1024 .f32) (x4 : Vec Ideal S1x1024 .f32) (x5 : Vec Ideal S1024x1024 .f32) (x6 : Vec Ideal S1x1024 .f32) (x7 : Vec Ideal S1024x64 .f32) (x8 : Vec Ideal S1x64 .f32) (x9 : Vec Ideal S1x96x1024 .f32) (x10 : Vec Ideal S1x1024x1024 .f32) (x11 : Vec Ideal S1x1024x1024 .f32) (x12 : Vec Ideal S1x1024x64 .f32)

/-- A step that is neither a core's first nor its last: the accumulator gains the member's output. -/
theorem sout_B (hc0 : ¬cond0_0 i) (hc1 : ¬cond0_1 i) (xs0 : Vec Ideal S4096x64 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0 = fun y => xs0 y + bout x0 x1 x2 x3 x4 x5 x6 x7 x8 x9 x10 x11 x12 (y 0) (y 1) := by
  funext y
  unfold sout0_B_0
  rw [show (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1
      = pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg16.unread xs0) k0_t1_loop.trips from by unfold kernelRun0_B; rfl]
  rw [loop_read, harg16.read_unread]

/-- A core's last step: the same for the accumulator, -/
theorem sout_C (hc0 : ¬cond0_0 i) (hc1 : cond0_1 i) (xs0 : Vec Ideal S4096x64 .f32) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0 = fun y => xs0 y + bout x0 x1 x2 x3 x4 x5 x6 x7 x8 x9 x10 x11 x12 (y 0) (y 1) := by
  funext y
  unfold sout0_C_0
  rw [show (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1
      = pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg16.unread xs0) k0_t1_loop.trips from by unfold kernelRun0_C; rfl]
  rw [loop_read, harg16.read_unread]

/-- and the output block holds the accumulator, as the step leaves it, times 1/16. -/
theorem out_C (hc0 : ¬cond0_0 i) (hc1 : cond0_1 i) (xs0 : Vec Ideal S4096x64 .f32) (n : Fin 4096) (p : Fin 64) :
    out0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0 (ix3 (0 : Fin 1) n p)
      = (xs0 (ix2 n p) + bout x0 x1 x2 x3 x4 x5 x6 x7 x8 x9 x10 x11 x12 n p) * c16 := by
  unfold out0_C_13
  rw [show (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).1
      = [⟨Rect.unit ![0, 0, 0] S1x4096x64.size inb_S1x4096x64_S1x4096x64_0_0_0,
          k0_pay3 (F := Ideal) (View.readAt (Elt Ideal) arg16.view (Rect.unit ![0, 0] S4096x64.size inb_S4096x64_S4096x64_0_0).toLoadRect
            (arg16.view.writes (Elt Ideal) (harg16.unread xs0) (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg16.unread xs0) k0_t1_loop.trips)))⟩] from by
    unfold kernelRun0_C; dsimp only; sl_unfold_run_names; rfl]
  have hidx : (Rect.unit (s := S1x4096x64) ![0, 0, 0] S1x4096x64.size inb_S1x4096x64_S1x4096x64_0_0_0).emb (ix3 (0 : Fin 1) n p) = ix3 (0 : Fin 1) n p := by
    funext a
    refine Fin.ext ?_
    match a with
    | ⟨0, _⟩ => rfl
    | ⟨1, _⟩ => show 0 + 1 * n.val = n.val; omega
    | ⟨2, _⟩ => show 0 + 1 * p.val = p.val; omega
  have h := View.read_writes_cons_emb VO0_13 (VO0_13.junk (Val := Elt Ideal))
    (Rect.unit (s := S1x4096x64) ![0, 0, 0] S1x4096x64.size inb_S1x4096x64_S1x4096x64_0_0_0)
    (k0_pay3 (F := Ideal) (View.readAt (Elt Ideal) arg16.view (Rect.unit ![0, 0] S4096x64.size inb_S4096x64_S4096x64_0_0).toLoadRect
            (arg16.view.writes (Elt Ideal) (harg16.unread xs0) (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg16.unread xs0) k0_t1_loop.trips)))) [] (ix3 (0 : Fin 1) n p)
  rw [hidx] at h
  have hidx2 : (Rect.unit (s := S4096x64) ![0, 0] S4096x64.size inb_S4096x64_S4096x64_0_0).toLoadRect.idx (ix2 n p) = ix2 n p := by
    funext a
    refine Fin.ext ?_
    match a with
    | ⟨0, _⟩ => show 0 + 1 * n.val = n.val; omega
    | ⟨1, _⟩ => show 0 + 1 * p.val = p.val; omega
  have hv : View.readAt (Elt Ideal) arg16.view (Rect.unit ![0, 0] S4096x64.size inb_S4096x64_S4096x64_0_0).toLoadRect
            (arg16.view.writes (Elt Ideal) (harg16.unread xs0) (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg16.unread xs0) k0_t1_loop.trips)) (ix2 n p) = xs0 (ix2 n p) + bout x0 x1 x2 x3 x4 x5 x6 x7 x8 x9 x10 x11 x12 n p := by
    rw [View.readAt_apply, hidx2, loop_read, harg16.read_unread]
  rw [h, pay3_apply, hv]

/-- A core's first step stores zeros first, so it leaves the member's output alone. -/
theorem sout_A (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 = fun y => bout x0 x1 x2 x3 x4 x5 x6 x7 x8 x9 x10 x11 x12 (y 0) (y 1) := by
  funext y
  unfold sout0_A_0
  rw [show (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.1
      = pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (arg16.view.writes (Elt Ideal) arg16.view.junk [⟨Rect.unit ![0, 0] S4096x64.size inb_S4096x64_S4096x64_0_0, k0_pay1 (F := Ideal)⟩]) k0_t1_loop.trips
          ++ [⟨Rect.unit ![0, 0] S4096x64.size inb_S4096x64_S4096x64_0_0, k0_pay1 (F := Ideal)⟩] from by
    unfold kernelRun0_A; dsimp only; sl_unfold_run_names; rfl]
  rw [View.writes_append, loop_read]
  have hz : arg16.view.read (Elt Ideal) (arg16.view.writes (Elt Ideal) arg16.view.junk
      [⟨Rect.unit ![0, 0] S4096x64.size inb_S4096x64_S4096x64_0_0, k0_pay1 (F := Ideal)⟩]) y = 0 := by
    refine View.read_writes_apply_of_pieces (Val := Elt Ideal) arg16.view _ (fun _ => (0 : EReal)) _ (fun pc hpc x => ?_) y ⟨_, List.mem_singleton.mpr rfl, ?_⟩
    · obtain rfl := List.mem_singleton.mp hpc
      exact pay1_apply x
    · exact (View.mem_set_unit_zero (S := S4096x64) Trip.zero2 inb_S4096x64_S4096x64_0_0 y)
  rw [hz, zero_add]

end

end Cert.KernelIdeal.Scratch

end
-- ==== Proof.Blocks.lean ====
/-
  The input blocks of the one grid, read at an index.

  Nine operands are whole arrays, the same at each of the sixteen grid points: the activations as given, the four weight
  matrices transposed before the region, and the four bias vectors recast as one-row matrices. The four mask operands are
  staged a member at a time: point t holds member t of each, as a block of one member.

  A block's coordinate on an axis is  block index × block size + coordinate inside the block.  For the whole arrays the
  block index is zero on every axis; for the masks it is (t, 0, 0).
-/
import proofs.«172082_j82995948027952_1_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx

variable (m : (ℓ : Loc nD τ sig) → Buf (Elt Ideal) ℓ)

/-! ## The arrays written before the region -/

/-- The first layer's weight, transposed. -/
theorem V_v0 (c : Dev nD) : (V m c main_v0 : Vec Ideal S96x1024 .f32)
    = transpose S96x1024 [1, 0] (m ((c : Thread nD τ).loc main_arg1) : Vec Ideal S1024x96 .f32) transposes_S1024x96_S96x1024_1_0 := by
  show StableHlo.after hostOps0 (fun b => m (c, b)) (Proc.devRef .tc main_v0) = _
  after_results

/-- The second layer's weight, transposed. -/
theorem V_v1 (c : Dev nD) : (V m c main_v1 : Vec Ideal S1024x1024 .f32)
    = transpose S1024x1024 [1, 0] (m ((c : Thread nD τ).loc main_arg3) : Vec Ideal S1024x1024 .f32) transposes_S1024x1024_S1024x1024_1_0 := by
  show StableHlo.after hostOps0 (fun b => m (c, b)) (Proc.devRef .tc main_v1) = _
  after_results

/-- The third layer's weight, transposed. -/
theorem V_v2 (c : Dev nD) : (V m c main_v2 : Vec Ideal S1024x1024 .f32)
    = transpose S1024x1024 [1, 0] (m ((c : Thread nD τ).loc main_arg5) : Vec Ideal S1024x1024 .f32) transposes_S1024x1024_S1024x1024_1_0 := by
  show StableHlo.after hostOps0 (fun b => m (c, b)) (Proc.devRef .tc main_v2) = _
  after_results

/-- The last layer's weight, transposed. -/
theorem V_v3 (c : Dev nD) : (V m c main_v3 : Vec Ideal S1024x64 .f32)
    = transpose S1024x64 [1, 0] (m ((c : Thread nD τ).loc main_arg7) : Vec Ideal S64x1024 .f32) transposes_S64x1024_S1024x64_1_0 := by
  show StableHlo.after hostOps0 (fun b => m (c, b)) (Proc.devRef .tc main_v3) = _
  after_results

/-- The first layer's bias as a one-row matrix. -/
theorem V_v4 (c : Dev nD) : (V m c main_v4 : Vec Ideal S1x1024 .f32)
    = shapeCast S1x1024 (m ((c : Thread nD τ).loc main_arg2) : Vec Ideal S1024 .f32) shapeCasts_S1024_S1x1024 := by
  show StableHlo.after hostOps0 (fun b => m (c, b)) (Proc.devRef .tc main_v4) = _
  after_results
  rfl

/-- The second layer's bias as a one-row matrix. -/
theorem V_v5 (c : Dev nD) : (V m c main_v5 : Vec Ideal S1x1024 .f32)
    = shapeCast S1x1024 (m ((c : Thread nD τ).loc main_arg4) : Vec Ideal S1024 .f32) shapeCasts_S1024_S1x1024 := by
  show StableHlo.after hostOps0 (fun b => m (c, b)) (Proc.devRef .tc main_v5) = _
  after_results
  rfl

/-- The third layer's bias as a one-row matrix. -/
theorem V_v6 (c : Dev nD) : (V m c main_v6 : Vec Ideal S1x1024 .f32)
    = shapeCast S1x1024 (m ((c : Thread nD τ).loc main_arg6) : Vec Ideal S1024 .f32) shapeCasts_S1024_S1x1024 := by
  show StableHlo.after hostOps0 (fun b => m (c, b)) (Proc.devRef .tc main_v6) = _
  after_results
  rfl

/-- The last layer's bias as a one-row matrix. -/
theorem V_v7 (c : Dev nD) : (V m c main_v7 : Vec Ideal S1x64 .f32)
    = shapeCast S1x64 (m ((c : Thread nD τ).loc main_arg8) : Vec Ideal S64 .f32) shapeCasts_S64_S1x64 := by
  show StableHlo.after hostOps0 (fun b => m (c, b)) (Proc.devRef .tc main_v7) = _
  after_results
  rfl

/-! ## The blocks by their literal types -/

/-- The activations at point `t`. -/
abbrev xb0 (c : Dev nD) (t : Fin cfg0.N) : Vec Ideal S4096x96 .f32 := iblk m c 0 t
/-- The first layer's transposed weight. -/
abbrev xb1 (c : Dev nD) (t : Fin cfg0.N) : Vec Ideal S96x1024 .f32 := iblk m c 1 t
/-- The first layer's bias row. -/
abbrev xb2 (c : Dev nD) (t : Fin cfg0.N) : Vec Ideal S1x1024 .f32 := iblk m c 2 t
/-- The second layer's transposed weight. -/
abbrev xb3 (c : Dev nD) (t : Fin cfg0.N) : Vec Ideal S1024x1024 .f32 := iblk m c 3 t
/-- The second layer's bias row. -/
abbrev xb4 (c : Dev nD) (t : Fin cfg0.N) : Vec Ideal S1x1024 .f32 := iblk m c 4 t
/-- The third layer's transposed weight. -/
abbrev xb5 (c : Dev nD) (t : Fin cfg0.N) : Vec Ideal S1024x1024 .f32 := iblk m c 5 t
/-- The third layer's bias row. -/
abbrev xb6 (c : Dev nD) (t : Fin cfg0.N) : Vec Ideal S1x1024 .f32 := iblk m c 6 t
/-- The last layer's transposed weight. -/
abbrev xb7 (c : Dev nD) (t : Fin cfg0.N) : Vec Ideal S1024x64 .f32 := iblk m c 7 t
/-- The last layer's bias row. -/
abbrev xb8 (c : Dev nD) (t : Fin cfg0.N) : Vec Ideal S1x64 .f32 := iblk m c 8 t
/-- One member of the first layer's mask. -/
abbrev xb9 (c : Dev nD) (t : Fin cfg0.N) : Vec Ideal S1x96x1024 .f32 := iblk m c 9 t
/-- One member of the second layer's mask. -/
abbrev xb10 (c : Dev nD) (t : Fin cfg0.N) : Vec Ideal S1x1024x1024 .f32 := iblk m c 10 t
/-- One member of the third layer's mask. -/
abbrev xb11 (c : Dev nD) (t : Fin cfg0.N) : Vec Ideal S1x1024x1024 .f32 := iblk m c 11 t
/-- One member of the last layer's mask. -/
abbrev xb12 (c : Dev nD) (t : Fin cfg0.N) : Vec Ideal S1x1024x64 .f32 := iblk m c 12 t

theorem xb0_def (c : Dev nD) (t : Fin cfg0.N) : xb0 m c t = iblk m c 0 t := rfl
theorem xb1_def (c : Dev nD) (t : Fin cfg0.N) : xb1 m c t = iblk m c 1 t := rfl
theorem xb2_def (c : Dev nD) (t : Fin cfg0.N) : xb2 m c t = iblk m c 2 t := rfl
theorem xb3_def (c : Dev nD) (t : Fin cfg0.N) : xb3 m c t = iblk m c 3 t := rfl
theorem xb4_def (c : Dev nD) (t : Fin cfg0.N) : xb4 m c t = iblk m c 4 t := rfl
theorem xb5_def (c : Dev nD) (t : Fin cfg0.N) : xb5 m c t = iblk m c 5 t := rfl
theorem xb6_def (c : Dev nD) (t : Fin cfg0.N) : xb6 m c t = iblk m c 6 t := rfl
theorem xb7_def (c : Dev nD) (t : Fin cfg0.N) : xb7 m c t = iblk m c 7 t := rfl
theorem xb8_def (c : Dev nD) (t : Fin cfg0.N) : xb8 m c t = iblk m c 8 t := rfl
theorem xb9_def (c : Dev nD) (t : Fin cfg0.N) : xb9 m c t = iblk m c 9 t := rfl
theorem xb10_def (c : Dev nD) (t : Fin cfg0.N) : xb10 m c t = iblk m c 10 t := rfl
theorem xb11_def (c : Dev nD) (t : Fin cfg0.N) : xb11 m c t = iblk m c 11 t := rfl
theorem xb12_def (c : Dev nD) (t : Fin cfg0.N) : xb12 m c t = iblk m c 12 t := rfl

/-! ## Where a block's index lies in its array -/

/-- A grid point is one of sixteen. -/
theorem hb (t : Fin cfg0.N) : t.val < 16 := lt_of_lt_of_eq t.isLt N_0

/-- The whole-array windows: the block index is zero on both axes, so an index of the block is the same index of the array. -/
theorem emb0 (t : Fin cfg0.N) (n : Fin 4096) (k : Fin 96) : ((cfg0.win 0).blk t).view.emb (ix2 n k) = ix2 n k := by
  funext a; apply Fin.ext
  match a with
  | ⟨0, _⟩ => show 0 * 4096 + 1 * n.val = n.val; omega
  | ⟨1, _⟩ => show 0 * 96 + 1 * k.val = k.val; omega
theorem emb1 (t : Fin cfg0.N) (k : Fin 96) (j : Fin 1024) : ((cfg0.win 1).blk t).view.emb (ix2 k j) = ix2 k j := by
  funext a; apply Fin.ext
  match a with
  | ⟨0, _⟩ => show 0 * 96 + 1 * k.val = k.val; omega
  | ⟨1, _⟩ => show 0 * 1024 + 1 * j.val = j.val; omega
theorem emb2 (t : Fin cfg0.N) (j : Fin 1024) : ((cfg0.win 2).blk t).view.emb (ix2 (0 : Fin 1) j) = ix2 (0 : Fin 1) j := by
  funext a; apply Fin.ext
  match a with
  | ⟨0, _⟩ => show 0 * 1 + 1 * 0 = 0; omega
  | ⟨1, _⟩ => show 0 * 1024 + 1 * j.val = j.val; omega
theorem emb3 (t : Fin cfg0.N) (k : Fin 1024) (j : Fin 1024) : ((cfg0.win 3).blk t).view.emb (ix2 k j) = ix2 k j := by
  funext a; apply Fin.ext
  match a with
  | ⟨0, _⟩ => show 0 * 1024 + 1 * k.val = k.val; omega
  | ⟨1, _⟩ => show 0 * 1024 + 1 * j.val = j.val; omega
theorem emb4 (t : Fin cfg0.N) (j : Fin 1024) : ((cfg0.win 4).blk t).view.emb (ix2 (0 : Fin 1) j) = ix2 (0 : Fin 1) j := by
  funext a; apply Fin.ext
  match a with
  | ⟨0, _⟩ => show 0 * 1 + 1 * 0 = 0; omega
  | ⟨1, _⟩ => show 0 * 1024 + 1 * j.val = j.val; omega
theorem emb5 (t : Fin cfg0.N) (k : Fin 1024) (j : Fin 1024) : ((cfg0.win 5).blk t).view.emb (ix2 k j) = ix2 k j := by
  funext a; apply Fin.ext
  match a with
  | ⟨0, _⟩ => show 0 * 1024 + 1 * k.val = k.val; omega
  | ⟨1, _⟩ => show 0 * 1024 + 1 * j.val = j.val; omega
theorem emb6 (t : Fin cfg0.N) (j : Fin 1024) : ((cfg0.win 6).blk t).view.emb (ix2 (0 : Fin 1) j) = ix2 (0 : Fin 1) j := by
  funext a; apply Fin.ext
  match a with
  | ⟨0, _⟩ => show 0 * 1 + 1 * 0 = 0; omega
  | ⟨1, _⟩ => show 0 * 1024 + 1 * j.val = j.val; omega
theorem emb7 (t : Fin cfg0.N) (k : Fin 1024) (p : Fin 64) : ((cfg0.win 7).blk t).view.emb (ix2 k p) = ix2 k p := by
  funext a; apply Fin.ext
  match a with
  | ⟨0, _⟩ => show 0 * 1024 + 1 * k.val = k.val; omega
  | ⟨1, _⟩ => show 0 * 64 + 1 * p.val = p.val; omega
theorem emb8 (t : Fin cfg0.N) (p : Fin 64) : ((cfg0.win 8).blk t).view.emb (ix2 (0 : Fin 1) p) = ix2 (0 : Fin 1) p := by
  funext a; apply Fin.ext
  match a with
  | ⟨0, _⟩ => show 0 * 1 + 1 * 0 = 0; omega
  | ⟨1, _⟩ => show 0 * 64 + 1 * p.val = p.val; omega

/-- The mask windows' block index on the member axis is the grid point's number: point (c, l) of the 2 × 8 grid takes
    member 8·c + l, and the points are numbered row by row. -/
theorem member9 : ∀ t : Fin cfg0.N, win0_9.index t (0 : Fin 3) = t.val := (by decide +kernel : ∀ t : Fin grid0.N, _)
theorem member10 : ∀ t : Fin cfg0.N, win0_10.index t (0 : Fin 3) = t.val := (by decide +kernel : ∀ t : Fin grid0.N, _)
theorem member11 : ∀ t : Fin cfg0.N, win0_11.index t (0 : Fin 3) = t.val := (by decide +kernel : ∀ t : Fin grid0.N, _)
theorem member12 : ∀ t : Fin cfg0.N, win0_12.index t (0 : Fin 3) = t.val := (by decide +kernel : ∀ t : Fin grid0.N, _)

/-- So the one member a mask's block holds at point `t` is member `t` of the array, whole on the other two axes. -/
theorem emb9 (t : Fin cfg0.N) (k : Fin 96) (j : Fin 1024) :
    ((cfg0.win 9).blk t).view.emb (ix3 (0 : Fin 1) k j) = ix3 (⟨t.val, hb t⟩ : Fin 16) k j := by
  funext a; apply Fin.ext
  match a with
  | ⟨0, _⟩ => show win0_9.index t (0 : Fin 3) * 1 + 1 * 0 = t.val; rw [member9]; omega
  | ⟨1, _⟩ => show 0 * 96 + 1 * k.val = k.val; omega
  | ⟨2, _⟩ => show 0 * 1024 + 1 * j.val = j.val; omega
theorem emb10 (t : Fin cfg0.N) (k : Fin 1024) (j : Fin 1024) :
    ((cfg0.win 10).blk t).view.emb (ix3 (0 : Fin 1) k j) = ix3 (⟨t.val, hb t⟩ : Fin 16) k j := by
  funext a; apply Fin.ext
  match a with
  | ⟨0, _⟩ => show win0_10.index t (0 : Fin 3) * 1 + 1 * 0 = t.val; rw [member10]; omega
  | ⟨1, _⟩ => show 0 * 1024 + 1 * k.val = k.val; omega
  | ⟨2, _⟩ => show 0 * 1024 + 1 * j.val = j.val; omega
theorem emb11 (t : Fin cfg0.N) (k : Fin 1024) (j : Fin 1024) :
    ((cfg0.win 11).blk t).view.emb (ix3 (0 : Fin 1) k j) = ix3 (⟨t.val, hb t⟩ : Fin 16) k j := by
  funext a; apply Fin.ext
  match a with
  | ⟨0, _⟩ => show win0_11.index t (0 : Fin 3) * 1 + 1 * 0 = t.val; rw [member11]; omega
  | ⟨1, _⟩ => show 0 * 1024 + 1 * k.val = k.val; omega
  | ⟨2, _⟩ => show 0 * 1024 + 1 * j.val = j.val; omega
theorem emb12 (t : Fin cfg0.N) (k : Fin 1024) (p : Fin 64) :
    ((cfg0.win 12).blk t).view.emb (ix3 (0 : Fin 1) k p) = ix3 (⟨t.val, hb t⟩ : Fin 16) k p := by
  funext a; apply Fin.ext
  match a with
  | ⟨0, _⟩ => show win0_12.index t (0 : Fin 3) * 1 + 1 * 0 = t.val; rw [member12]; omega
  | ⟨1, _⟩ => show 0 * 1024 + 1 * k.val = k.val; omega
  | ⟨2, _⟩ => show 0 * 64 + 1 * p.val = p.val; omega

/-! ## The blocks in terms of the argument arrays -/

/-- A transposed matrix reads its source at the swapped index. -/
theorem transposed_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun d => by
    match d with
    | ⟨0, _⟩ => rfl
    | ⟨1, _⟩ => rfl

/-- The activations are the first argument, whole. -/
theorem xblk0 (c : Dev nD) (t : Fin cfg0.N) (n : Fin 4096) (k : Fin 96) :
    xb0 m c t (ix2 n k) = (m ((c : Thread nD τ).loc main_arg0) : Vec Ideal S4096x96 .f32) (ix2 n k) := by
  show (V m c main_arg0 : Vec Ideal S4096x96 .f32) (((cfg0.win 0).blk t).view.emb (ix2 n k)) = _
  rw [emb0, V_main_arg0]

/-- The first layer's weight block at (k, j) is the weight at (j, k). -/
theorem xblk1 (c : Dev nD) (t : Fin cfg0.N) (k : Fin 96) (j : Fin 1024) :
    xb1 m c t (ix2 k j) = (m ((c : Thread nD τ).loc main_arg1) : Vec Ideal S1024x96 .f32) (ix2 j k) := by
  show (V m c main_v0 : Vec Ideal S96x1024 .f32) (((cfg0.win 1).blk t).view.emb (ix2 k j)) = _
  rw [emb1, V_v0]
  exact transposed_apply _ _ k j

/-- The first layer's bias row at (0, j) is the bias at j. -/
theorem xblk2 (c : Dev nD) (t : Fin cfg0.N) (j : Fin 1024) :
    xb2 m c t (ix2 (0 : Fin 1) j) = (m ((c : Thread nD τ).loc main_arg2) : Vec Ideal S1024 .f32) (ix1 j) := by
  show (V m c main_v4 : Vec Ideal S1x1024 .f32) (((cfg0.win 2).blk t).view.emb (ix2 (0 : Fin 1) j)) = _
  rw [emb2, V_v4]
  exact shapeCast_a_1a_apply _ _ (0 : Fin 1) j

/-- The second layer's weight block at (k, j) is the weight at (j, k). -/
theorem xblk3 (c : Dev nD) (t : Fin cfg0.N) (k : Fin 1024) (j : Fin 1024) :
    xb3 m c t (ix2 k j) = (m ((c : Thread nD τ).loc main_arg3) : Vec Ideal S1024x1024 .f32) (ix2 j k) := by
  show (V m c main_v1 : Vec Ideal S1024x1024 .f32) (((cfg0.win 3).blk t).view.emb (ix2 k j)) = _
  rw [emb3, V_v1]
  exact transposed_apply _ _ k j

/-- The second layer's bias row at (0, j) is the bias at j. -/
theorem xblk4 (c : Dev nD) (t : Fin cfg0.N) (j : Fin 1024) :
    xb4 m c t (ix2 (0 : Fin 1) j) = (m ((c : Thread nD τ).loc main_arg4) : Vec Ideal S1024 .f32) (ix1 j) := by
  show (V m c main_v5 : Vec Ideal S1x1024 .f32) (((cfg0.win 4).blk t).view.emb (ix2 (0 : Fin 1) j)) = _
  rw [emb4, V_v5]
  exact shapeCast_a_1a_apply _ _ (0 : Fin 1) j

/-- The third layer's weight block at (k, j) is the weight at (j, k). -/
theorem xblk5 (c : Dev nD) (t : Fin cfg0.N) (k : Fin 1024) (j : Fin 1024) :
    xb5 m c t (ix2 k j) = (m ((c : Thread nD τ).loc main_arg5) : Vec Ideal S1024x1024 .f32) (ix2 j k) := by
  show (V m c main_v2 : Vec Ideal S1024x1024 .f32) (((cfg0.win 5).blk t).view.emb (ix2 k j)) = _
  rw [emb5, V_v2]
  exact transposed_apply _ _ k j

/-- The third layer's bias row at (0, j) is the bias at j. -/
theorem xblk6 (c : Dev nD) (t : Fin cfg0.N) (j : Fin 1024) :
    xb6 m c t (ix2 (0 : Fin 1) j) = (m ((c : Thread nD τ).loc main_arg6) : Vec Ideal S1024 .f32) (ix1 j) := by
  show (V m c main_v6 : Vec Ideal S1x1024 .f32) (((cfg0.win 6).blk t).view.emb (ix2 (0 : Fin 1) j)) = _
  rw [emb6, V_v6]
  exact shapeCast_a_1a_apply _ _ (0 : Fin 1) j

/-- The last layer's weight block at (k, p) is the weight at (p, k). -/
theorem xblk7 (c : Dev nD) (t : Fin cfg0.N) (k : Fin 1024) (p : Fin 64) :
    xb7 m c t (ix2 k p) = (m ((c : Thread nD τ).loc main_arg7) : Vec Ideal S64x1024 .f32) (ix2 p k) := by
  show (V m c main_v3 : Vec Ideal S1024x64 .f32) (((cfg0.win 7).blk t).view.emb (ix2 k p)) = _
  rw [emb7, V_v3]
  exact transposed_apply _ _ k p

/-- The last layer's bias row at (0, p) is the bias at p. -/
theorem xblk8 (c : Dev nD) (t : Fin cfg0.N) (p : Fin 64) :
    xb8 m c t (ix2 (0 : Fin 1) p) = (m ((c : Thread nD τ).loc main_arg8) : Vec Ideal S64 .f32) (ix1 p) := by
  show (V m c main_v7 : Vec Ideal S1x64 .f32) (((cfg0.win 8).blk t).view.emb (ix2 (0 : Fin 1) p)) = _
  rw [emb8, V_v7]
  exact shapeCast_a_1a_apply _ _ (0 : Fin 1) p

/-- The first layer's mask block at point `t` is member `t` of the mask. -/
theorem xblk9 (c : Dev nD) (t : Fin cfg0.N) (k : Fin 96) (j : Fin 1024) :
    xb9 m c t (ix3 (0 : Fin 1) k j)
      = (m ((c : Thread nD τ).loc main_arg9) : Vec Ideal S16x96x1024 .f32) (ix3 (⟨t.val, hb t⟩ : Fin 16) k j) := by
  show (V m c main_arg9 : Vec Ideal S16x96x1024 .f32) (((cfg0.win 9).blk t).view.emb (ix3 (0 : Fin 1) k j)) = _
  rw [emb9, V_main_arg9]

/-- The second layer's mask block at point `t` is member `t` of the mask. -/
theorem xblk10 (c : Dev nD) (t : Fin cfg0.N) (k : Fin 1024) (j : Fin 1024) :
    xb10 m c t (ix3 (0 : Fin 1) k j)
      = (m ((c : Thread nD τ).loc main_arg10) : Vec Ideal S16x1024x1024 .f32) (ix3 (⟨t.val, hb t⟩ : Fin 16) k j) := by
  show (V m c main_arg10 : Vec Ideal S16x1024x1024 .f32) (((cfg0.win 10).blk t).view.emb (ix3 (0 : Fin 1) k j)) = _
  rw [emb10, V_main_arg10]

/-- The third layer's mask block at point `t` is member `t` of the mask. -/
theorem xblk11 (c : Dev nD) (t : Fin cfg0.N) (k : Fin 1024) (j : Fin 1024) :
    xb11 m c t (ix3 (0 : Fin 1) k j)
      = (m ((c : Thread nD τ).loc main_arg11) : Vec Ideal S16x1024x1024 .f32) (ix3 (⟨t.val, hb t⟩ : Fin 16) k j) := by
  show (V m c main_arg11 : Vec Ideal S16x1024x1024 .f32) (((cfg0.win 11).blk t).view.emb (ix3 (0 : Fin 1) k j)) = _
  rw [emb11, V_main_arg11]

/-- The last layer's mask block at point `t` is member `t` of the mask. -/
theorem xblk12 (c : Dev nD) (t : Fin cfg0.N) (k : Fin 1024) (p : Fin 64) :
    xb12 m c t (ix3 (0 : Fin 1) k p)
      = (m ((c : Thread nD τ).loc main_arg12) : Vec Ideal S16x1024x64 .f32) (ix3 (⟨t.val, hb t⟩ : Fin 16) k p) := by
  show (V m c main_arg12 : Vec Ideal S16x1024x64 .f32) (((cfg0.win 12).blk t).view.emb (ix3 (0 : Fin 1) k p)) = _
  rw [emb12, V_main_arg12]

/-! ## The same, stated over the blocks as the frame names them -/

theorem blk0 (c : Dev nD) (t : Fin cfg0.N) (n : Fin 4096) (k : Fin 96) :
    (iblk m c 0 t : Vec Ideal S4096x96 .f32) (ix2 n k) = (m ((c : Thread nD τ).loc main_arg0) : Vec Ideal S4096x96 .f32) (ix2 n k) :=
  xblk0 m c t n k
theorem blk1 (c : Dev nD) (t : Fin cfg0.N) (k : Fin 96) (j : Fin 1024) :
    (iblk m c 1 t : Vec Ideal S96x1024 .f32) (ix2 k j) = (m ((c : Thread nD τ).loc main_arg1) : Vec Ideal S1024x96 .f32) (ix2 j k) :=
  xblk1 m c t k j
theorem blk2 (c : Dev nD) (t : Fin cfg0.N) (j : Fin 1024) :
    (iblk m c 2 t : Vec Ideal S1x1024 .f32) (ix2 (0 : Fin 1) j) = (m ((c : Thread nD τ).loc main_arg2) : Vec Ideal S1024 .f32) (ix1 j) :=
  xblk2 m c t j
theorem blk3 (c : Dev nD) (t : Fin cfg0.N) (k : Fin 1024) (j : Fin 1024) :
    (iblk m c 3 t : Vec Ideal S1024x1024 .f32) (ix2 k j) = (m ((c : Thread nD τ).loc main_arg3) : Vec Ideal S1024x1024 .f32) (ix2 j k) :=
  xblk3 m c t k j
theorem blk4 (c : Dev nD) (t : Fin cfg0.N) (j : Fin 1024) :
    (iblk m c 4 t : Vec Ideal S1x1024 .f32) (ix2 (0 : Fin 1) j) = (m ((c : Thread nD τ).loc main_arg4) : Vec Ideal S1024 .f32) (ix1 j) :=
  xblk4 m c t j
theorem blk5 (c : Dev nD) (t : Fin cfg0.N) (k : Fin 1024) (j : Fin 1024) :
    (iblk m c 5 t : Vec Ideal S1024x1024 .f32) (ix2 k j) = (m ((c : Thread nD τ).loc main_arg5) : Vec Ideal S1024x1024 .f32) (ix2 j k) :=
  xblk5 m c t k j
theorem blk6 (c : Dev nD) (t : Fin cfg0.N) (j : Fin 1024) :
    (iblk m c 6 t : Vec Ideal S1x1024 .f32) (ix2 (0 : Fin 1) j) = (m ((c : Thread nD τ).loc main_arg6) : Vec Ideal S1024 .f32) (ix1 j) :=
  xblk6 m c t j
theorem blk7 (c : Dev nD) (t : Fin cfg0.N) (k : Fin 1024) (p : Fin 64) :
    (iblk m c 7 t : Vec Ideal S1024x64 .f32) (ix2 k p) = (m ((c : Thread nD τ).loc main_arg7) : Vec Ideal S64x1024 .f32) (ix2 p k) :=
  xblk7 m c t k p
theorem blk8 (c : Dev nD) (t : Fin cfg0.N) (p : Fin 64) :
    (iblk m c 8 t : Vec Ideal S1x64 .f32) (ix2 (0 : Fin 1) p) = (m ((c : Thread nD τ).loc main_arg8) : Vec Ideal S64 .f32) (ix1 p) :=
  xblk8 m c t p
theorem blk9 (c : Dev nD) (t : Fin cfg0.N) (k : Fin 96) (j : Fin 1024) :
    (iblk m c 9 t : Vec Ideal S1x96x1024 .f32) (ix3 (0 : Fin 1) k j)
      = (m ((c : Thread nD τ).loc main_arg9) : Vec Ideal S16x96x1024 .f32) (ix3 (⟨t.val, hb t⟩ : Fin 16) k j) :=
  xblk9 m c t k j
theorem blk10 (c : Dev nD) (t : Fin cfg0.N) (k : Fin 1024) (j : Fin 1024) :
    (iblk m c 10 t : Vec Ideal S1x1024x1024 .f32) (ix3 (0 : Fin 1) k j)
      = (m ((c : Thread nD τ).loc main_arg10) : Vec Ideal S16x1024x1024 .f32) (ix3 (⟨t.val, hb t⟩ : Fin 16) k j) :=
  xblk10 m c t k j
theorem blk11 (c : Dev nD) (t : Fin cfg0.N) (k : Fin 1024) (j : Fin 1024) :
    (iblk m c 11 t : Vec Ideal S1x1024x1024 .f32) (ix3 (0 : Fin 1) k j)
      = (m ((c : Thread nD τ).loc main_arg11) : Vec Ideal S16x1024x1024 .f32) (ix3 (⟨t.val, hb t⟩ : Fin 16) k j) :=
  xblk11 m c t k j
theorem blk12 (c : Dev nD) (t : Fin cfg0.N) (k : Fin 1024) (p : Fin 64) :
    (iblk m c 12 t : Vec Ideal S1x1024x64 .f32) (ix3 (0 : Fin 1) k p)
      = (m ((c : Thread nD τ).loc main_arg12) : Vec Ideal S16x1024x64 .f32) (ix3 (⟨t.val, hb t⟩ : Fin 16) k p) :=
  xblk12 m c t k p

end Cert.KernelIdeal.Blocks

end
-- ==== Proof.KArgs.lean ====
/-
  The kernel program's thirteen argument arrays, as the specification's record.
-/
import proofs.«172082_j82995948027952_1_alg».proof.KernelIdeal
import proofs.«172082_j82995948027952_1_alg».proof.Proof.Spec

noncomputable section

namespace Cert.KernelIdeal.KValue

open Idealize.ShloMosaic Idealize.ShloMosaic.TcCoe Idealize.SL.Sem Cert.KernelIdeal

/-- Core `c`'s argument arrays at launch. -/
def args (m : (ℓ : Loc nD τ sig) → Buf (Elt Ideal) ℓ) (c : Dev nD) : Cert.MaskedMlp.Args where
  xy := m ((c : Thread nD τ).loc main_arg0)
  W0 := m ((c : Thread nD τ).loc main_arg1)
  b0 := m ((c : Thread nD τ).loc main_arg2)
  W1 := m ((c : Thread nD τ).loc main_arg3)
  b1 := m ((c : Thread nD τ).loc main_arg4)
  W2 := m ((c : Thread nD τ).loc main_arg5)
  b2 := m ((c : Thread nD τ).loc main_arg6)
  W3 := m ((c : Thread nD τ).loc main_arg7)
  b3 := m ((c : Thread nD τ).loc main_arg8)
  M0 := m ((c : Thread nD τ).loc main_arg9)
  M1 := m ((c : Thread nD τ).loc main_arg10)
  M2 := m ((c : Thread nD τ).loc main_arg11)
  M3 := m ((c : Thread nD τ).loc main_arg12)

end Cert.KernelIdeal.KValue

end
-- ==== Proof.Points.lean ====
/-
  What the accumulator and the output block hold after each grid point.

  A core's eight points work on eight consecutive members.  The first stores zeros and then adds its member's output, so
  it leaves that output; every later point adds its member's output to what the point before left; so after point t the
  accumulator holds the sum of the members of t's half up to t, added in order.  The last point of a half also stores the
  accumulator times 1/16 into the output block.
-/
import proofs.«172082_j82995948027952_1_alg».proof.Proof.Gen.KernelIdeal.Frame
import proofs.«172082_j82995948027952_1_alg».proof.Proof.Scratch
import proofs.«172082_j82995948027952_1_alg».proof.Proof.Blocks
import proofs.«172082_j82995948027952_1_alg».proof.Proof.KArgs
import proofs.«172082_j82995948027952_1_alg».proof.Proof.SpecBlocks

noncomputable section
namespace Cert.KernelIdeal.Points
open Idealize.ShloMosaic Idealize.ShloMosaic.TcCoe Idealize.ShloMosaic.ValueIdx Idealize.SL.Sem
open Cert.KernelIdeal Cert.KernelIdeal.Gen Cert.KernelIdeal.KValue Cert.MaskedMlp
open Cert.KernelIdeal.Blocks Cert.KernelIdeal.Scratch

variable (m : (ℓ : Loc nD τ sig) → Buf (Elt Ideal) ℓ)

/-- The blocks a grid point holds are the input, the transposed weights, the bias rows and the masks of the member with
    the point's number; so what the point contributes at (n, p) is that member's output. -/
theorem bout_point (c : Dev nD) (t : Fin cfg0.N) (n : Fin 4096) (p : Fin 64) :
    bout (xb0 m c t) (xb1 m c t) (xb2 m c t) (xb3 m c t) (xb4 m c t) (xb5 m c t) (xb6 m c t) (xb7 m c t) (xb8 m c t) (xb9 m c t) (xb10 m c t) (xb11 m c t) (xb12 m c t) n p = outN (args m c) t.val n p :=
  (bout_eq_out (args m c) ⟨t.val, hb t⟩ (xb0 m c t) (xb1 m c t) (xb2 m c t) (xb3 m c t) (xb4 m c t) (xb5 m c t) (xb6 m c t) (xb7 m c t) (xb8 m c t) (xb9 m c t) (xb10 m c t) (xb11 m c t) (xb12 m c t)
    (blk0 m c t) (blk1 m c t) (blk2 m c t) (blk3 m c t) (blk4 m c t) (blk5 m c t) (blk6 m c t) (blk7 m c t) (blk8 m c t) (blk9 m c t) (blk10 m c t) (blk11 m c t) (blk12 m c t) n p).trans
    (outN_val (args m c) ⟨t.val, hb t⟩ n p).symm

/-- A half's first point leaves its member's output. -/
theorem acc_A (c : Dev nD) (t : Fin cfg0.N) (h0 : t.val % 8 = 0) (h1 : ¬t.val % 8 = 7) :
    (outsAt0 m c t.val t.isLt).2 = fun y => accT (args m c) t.val (y 0) (y 1) := by
  rw [outsAt0_A m c t h0 h1]
  dsimp only
  refine (sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0) (fun h => h1 ((hcond0_1 t).mp h))).trans ?_
  funext y
  exact (bout_point m c t (y 0) (y 1)).trans (accT_first (args m c) t.val h0 (y 0) (y 1)).symm

/-- A point inside a half adds its member's output to what the point before left. -/
theorem acc_B (c : Dev nD) (t : Fin cfg0.N) (h0 : ¬t.val % 8 = 0) (h1 : ¬t.val % 8 = 7)
    (hprev : (outsAt0 m c (t.val - 1) (Nat.lt_of_le_of_lt (Nat.sub_le _ _) t.isLt)).2 = fun y => accT (args m c) (t.val - 1) (y 0) (y 1)) :
    (outsAt0 m c t.val t.isLt).2 = fun y => accT (args m c) t.val (y 0) (y 1) := by
  rw [outsAt0_B m c t h0 h1]
  dsimp only
  refine (sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun h => h0 ((hcond0_0 t).mp h)) (fun h => h1 ((hcond0_1 t).mp h)) (outsAt0 m c (t.val - 1) (Nat.lt_of_le_of_lt (Nat.sub_le _ _) t.isLt)).2).trans ?_
  funext y
  refine Eq.trans ?_ (accT_next (args m c) t.val h0 (y 0) (y 1)).symm
  exact congrArg₂ (· + ·) (congrFun hprev y) (bout_point m c t (y 0) (y 1))

/-- So does a half's last point. -/
theorem acc_C (c : Dev nD) (t : Fin cfg0.N) (h0 : ¬t.val % 8 = 0) (h1 : t.val % 8 = 7)
    (hprev : (outsAt0 m c (t.val - 1) (Nat.lt_of_le_of_lt (Nat.sub_le _ _) t.isLt)).2 = fun y => accT (args m c) (t.val - 1) (y 0) (y 1)) :
    (outsAt0 m c t.val t.isLt).2 = fun y => accT (args m c) t.val (y 0) (y 1) := by
  rw [outsAt0_C m c t h0 h1]
  dsimp only
  refine (sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun h => h0 ((hcond0_0 t).mp h)) ((hcond0_1 t).mpr h1) (outsAt0 m c (t.val - 1) (Nat.lt_of_le_of_lt (Nat.sub_le _ _) t.isLt)).2).trans ?_
  funext y
  refine Eq.trans ?_ (accT_next (args m c) t.val h0 (y 0) (y 1)).symm
  exact congrArg₂ (· + ·) (congrFun hprev y) (bout_point m c t (y 0) (y 1))

/-- The running sum, by induction on the point's number. -/
theorem acc_at (c : Dev nD) : ∀ (k : ℕ) (t : Fin cfg0.N), t.val = k →
    (outsAt0 m c t.val t.isLt).2 = fun y => accT (args m c) t.val (y 0) (y 1) := by
  intro k
  induction k with
  | zero =>
    intro t ht
    exact acc_A m c t (by rw [ht]) (by rw [ht]; decide)
  | succ k ih =>
    intro t ht
    by_cases h0 : t.val % 8 = 0
    · exact acc_A m c t h0 (by omega)
    · have hprev := ih ⟨t.val - 1, Nat.lt_of_le_of_lt (Nat.sub_le _ _) t.isLt⟩ (by show t.val - 1 = k; omega)
      by_cases h1 : t.val % 8 = 7
      · exact acc_C m c t h0 h1 hprev
      · exact acc_B m c t h0 h1 hprev

theorem acc_eq (c : Dev nD) (t : Fin cfg0.N) :
    (outsAt0 m c t.val t.isLt).2 = fun y => accT (args m c) t.val (y 0) (y 1) :=
  acc_at m c t.val t rfl

theorem outC_eq (c : Dev nD) (t : Fin cfg0.N) (h : t.val % 8 = 7) (n : Fin 4096) (p : Fin 64) :
    (outsAt0 m c t.val t.isLt).1 (ix3 (0 : Fin 1) n p) = accT (args m c) t.val n p * c16 := by
  have h0 : ¬t.val % 8 = 0 := by omega
  have h1 : t.val % 8 = 7 := h
  have hprev : (outsAt0 m c (t.val - 1) (Nat.lt_of_le_of_lt (Nat.sub_le _ _) t.isLt)).2 = fun y => accT (args m c) (t.val - 1) (y 0) (y 1) :=
    acc_eq m c ⟨t.val - 1, Nat.lt_of_le_of_lt (Nat.sub_le _ _) t.isLt⟩
  rw [outsAt0_C m c t h0 h1]
  dsimp only
  refine (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun h => h0 ((hcond0_0 t).mp h)) ((hcond0_1 t).mpr h1) (outsAt0 m c (t.val - 1) (Nat.lt_of_le_of_lt (Nat.sub_le _ _) t.isLt)).2 n p).trans ?_
  refine congrArg (· * c16) ?_
  refine Eq.trans ?_ (accT_next (args m c) t.val h0 n p).symm
  exact congrArg₂ (· + ·) (congrFun hprev (ix2 n p)) (bout_point m c t n p)

end Cert.KernelIdeal.Points
end
-- ==== Proof.Final.lean ====
import proofs.«172082_j82995948027952_1_alg».proof.Proof.Gen.KernelIdeal.Frame
import proofs.«172082_j82995948027952_1_alg».proof.Proof.Points
import Idealize.ShloMosaic.Lib.Pipeline.Value

/-
  The output array after the run.

  The output window's block at point t is the block (t / 8, 0, 0) of the [2, 4096, 64] array, and it is written back
  only at the last point of each half of the ensemble, t = 7 and t = 15.  There the block holds the half's running sum
  of the members' outputs times one sixteenth.  The two blocks tile the array, so the array ends holding, at (c', n, p),
  the scaled sum of the half c'.
-/

noncomputable section
namespace Cert.KernelIdeal.Final
open Idealize.ShloMosaic Idealize.ShloMosaic.TcCoe Idealize.ShloMosaic.ValueIdx Idealize.SL.Sem
open Cert.KernelIdeal Cert.KernelIdeal.Gen Cert.KernelIdeal.KValue Cert.MaskedMlp

variable (m : (ℓ : Loc nD τ sig) → Buf (Elt Ideal) ℓ)

/-- The two cores' scaled half sums, stacked. -/
def halfSums (a : Args) : Vec Ideal S2x4096x64 .f32 := fun y => accT a (8 * (y 0).val + 7) (y 1) (y 2) * c16

/-- The output block is written back only at the last point of a half. -/
theorem flush13_mod : ∀ t : Fin cfg0.N, (cfg0.win 13).flush t = true → t.val % 8 = 7 := by decide +kernel

/-- And it is written back at the last point of either half. -/
theorem flush13_last : ∀ q : Fin 2, ∃ t : Fin cfg0.N, t.val = 8 * q.val + 7 ∧ (cfg0.win 13).flush t = true := by decide +kernel

/-- The output window's block index at point t is (t / 8, 0, 0). -/
theorem index13 : ∀ t : Fin cfg0.N, win0_13.index t (0 : Fin 3) = t.val / 8 ∧ win0_13.index t (1 : Fin 3) = 0
    ∧ win0_13.index t (2 : Fin 3) = 0 := by decide +kernel

/-- What a write-back of the output window writes is its block of the stacked half sums. -/
theorem flushed13_eq (c : Dev nD) (t : Fin cfg0.N) (hf : (cfg0.win 13).flush t = true) :
    (dats m 0 c).flushed 13 t = ((cfg0.win 13).blk t).view.read (Elt Ideal) (halfSums (args m c)) := by
  have h7 : t.val % 8 = 7 := flush13_mod t hf
  obtain ⟨e0, e1, e2⟩ := index13 t
  show (cfg0.win 13).cut (grid0.coords t) ((dats m 0 c).after 13 t) = _
  rw [after0_13]
  funext j
  have hj0 : (j 0).val < 1 := (j 0).isLt
  have hj1 : (j 1).val < 4096 := (j 1).isLt
  have hj2 : (j 2).val < 64 := (j 2).isLt
  show (outsAt0 m c t.val t.isLt).1 (win0_13.xinj (grid0.coords t) j)
    = halfSums (args m c) (((cfg0.win 13).blk t).view.emb j)
  have hx : win0_13.xinj (grid0.coords t) j = ix3 (0 : Fin 1) (⟨(j 1).val, hj1⟩ : Fin 4096) (⟨(j 2).val, hj2⟩ : Fin 64) :=
    funext fun a => Fin.ext (by
      match a with
      | ⟨0, _⟩ => show (j 0).val = 0; omega
      | ⟨1, _⟩ => rfl
      | ⟨2, _⟩ => rfl)
  rw [hx, Points.outC_eq m c t h7]
  unfold halfSums
  have y0 : ((((cfg0.win 13).blk t).view.emb j) 0).val = t.val / 8 := by
    show win0_13.index t (0 : Fin 3) * 1 + 1 * (j 0).val = t.val / 8
    omega
  have y1 : (((cfg0.win 13).blk t).view.emb j) 1 = (⟨(j 1).val, hj1⟩ : Fin 4096) := Fin.ext (by
    show win0_13.index t (1 : Fin 3) * 4096 + 1 * (j 1).val = (j 1).val
    omega)
  have y2 : (((cfg0.win 13).blk t).view.emb j) 2 = (⟨(j 2).val, hj2⟩ : Fin 64) := Fin.ext (by
    show win0_13.index t (2 : Fin 3) * 64 + 1 * (j 2).val = (j 2).val
    omega)
  rw [y0, y1, y2, show 8 * (t.val / 8) + 7 = t.val from by omega]

/-- Every index of the array lies in the block written back at the last point of its half. -/
theorem cover13 (i : S2x4096x64.Idx) :
    ∃ t : Fin cfg0.N, (cfg0.win 13).flush t = true ∧ i ∈ ((cfg0.win 13).blk t).view.set := by
  have hi0 : (i 0).val < 2 := (i 0).isLt
  have hi1 : (i 1).val < 4096 := (i 1).isLt
  have hi2 : (i 2).val < 64 := (i 2).isLt
  obtain ⟨t, ht, hf⟩ := flush13_last ⟨(i 0).val, hi0⟩
  obtain ⟨e0, e1, e2⟩ := index13 t
  refine ⟨t, hf, ?_⟩
  show i ∈ ((View.whole main_v8).slice (win0_13.rect t)).set
  rw [View.set_slice_whole, Rect.mem_set_unit]
  intro a
  match a with
  | ⟨0, _⟩ =>
    show win0_13.index t (0 : Fin 3) * 1 ≤ (i 0).val ∧ (i 0).val < win0_13.index t (0 : Fin 3) * 1 + 1
    have : t.val = 8 * (i 0).val + 7 := ht
    omega
  | ⟨1, _⟩ =>
    show win0_13.index t (1 : Fin 3) * 4096 ≤ (i 1).val ∧ (i 1).val < win0_13.index t (1 : Fin 3) * 4096 + 4096
    omega
  | ⟨2, _⟩ =>
    show win0_13.index t (2 : Fin 3) * 64 ≤ (i 2).val ∧ (i 2).val < win0_13.index t (2 : Fin 3) * 64 + 64
    omega

theorem final13 (c : Dev nD) : (dats m 0 c).arrAt 13 cfg0.N = halfSums (args m c) :=
  (dats m 0 c).arrAt_eq_of_cover 13 (halfSums (args m c)) (flushed13_eq m c) cover13

end Cert.KernelIdeal.Final
end
-- ==== Proof.Tail.lean ====
/-
  After the region: the two halves of the stacked output are added, and the sum is the mean of the sixteen outputs.

  The region leaves a stack of two matrices: half c' holds, at (n, p), the sum of the outputs of members 8c' … 8c' + 7
  scaled by a sixteenth. The lines after the region cut the stack into its two members, recast each [1, 4096, 64] slice
  as a [4096, 64] matrix and add the two. So the result at (n, p) is the first half's entry plus the second's, which is
  the scaled sum over all sixteen members.
-/
import proofs.«172082_j82995948027952_1_alg».proof.Proof.Gen.KernelIdeal.Frame
import proofs.«172082_j82995948027952_1_alg».proof.Proof.Final
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Tail

open Idealize.ShloMosaic Idealize.ShloMosaic.TcCoe Idealize.ShloMosaic.ValueIdx Idealize.SL.Sem
open Cert.KernelIdeal Cert.KernelIdeal.Gen Cert.KernelIdeal.KValue Cert.MaskedMlp

variable (m : (ℓ : Loc nD τ sig) → Buf (Elt Ideal) ℓ)

/-! ## The two members of a stack of two -/

/-- The slice of a stack of two from member 0, at (0, n, p), is the stack at (0, n, p). -/
theorem member0_apply {α : Type} (X : S2x4096x64.Idx → α) (h : S2x4096x64.Slices ![0, 0, 0] S1x4096x64) (n : Fin 4096) (p : Fin 64) :
    extractStridedSlice S1x4096x64 ![0, 0, 0] X h (ix3 (0 : Fin 1) n p) = X (ix3 (0 : Fin 2) n p) :=
  extractStridedSlice_apply _ _ _ _ _ fun a => by
    match a with
    | ⟨0, _⟩ => rfl
    | ⟨1, _⟩ => exact (Nat.zero_add _).symm
    | ⟨2, _⟩ => exact (Nat.zero_add _).symm

/-- The slice from member 1, at (0, n, p), is the stack at (1, n, p). -/
theorem member1_apply {α : Type} (X : S2x4096x64.Idx → α) (h : S2x4096x64.Slices ![1, 0, 0] S1x4096x64) (n : Fin 4096) (p : Fin 64) :
    extractStridedSlice S1x4096x64 ![1, 0, 0] X h (ix3 (0 : Fin 1) n p) = X (ix3 (1 : Fin 2) n p) :=
  extractStridedSlice_apply _ _ _ _ _ fun a => by
    match a with
    | ⟨0, _⟩ => rfl
    | ⟨1, _⟩ => exact (Nat.zero_add _).symm
    | ⟨2, _⟩ => exact (Nat.zero_add _).symm

/-! ## The result in terms of the stack -/

/-- The stacked array the region leaves, by its literal type. -/
abbrev stacked (c : Dev nD) : Vec Ideal S2x4096x64 .f32 := (dats m 0 c).arrAt 13 cfg0.N

/-- The result array: the sum of the stack's two members, each recast as a matrix. -/
theorem tail_eq (c : Dev nD) :
    @Eq (FVec Ideal S4096x64 .f32) (Pipeline.afterTail₀ cfgs (dats m) 0 (V0 m) [hostOps1] c main_v13)
      (addf (shapeCast S4096x64 (extractStridedSlice S1x4096x64 ![0, 0, 0] (stacked m c) slices_S2x4096x64_S1x4096x64_0_0_0) shapeCasts_S1x4096x64_S4096x64)
             (shapeCast S4096x64 (extractStridedSlice S1x4096x64 ![1, 0, 0] (stacked m c) slices_S2x4096x64_S1x4096x64_1_0_0) shapeCasts_S1x4096x64_S4096x64)) := by
  unfold Pipeline.afterTail₀
  show StableHlo.after hostOps1 _ (Proc.devRef .tc main_v13) = _
  after_results
  rw [Pipeline.withArrays_arr spec0 launch0.win.arr_inj c _ _ 13]
  rfl

/-- Read at (n, p): the first member's entry plus the second's. -/
theorem tail_apply (c : Dev nD) (n : Fin 4096) (p : Fin 64) :
    @Eq EReal ((Pipeline.afterTail₀ cfgs (dats m) 0 (V0 m) [hostOps1] c main_v13 : FVec Ideal S4096x64 .f32) (ix2 n p))
      (stacked m c (ix3 (0 : Fin 2) n p) + stacked m c (ix3 (1 : Fin 2) n p)) := by
  refine (congrFun (tail_eq m c) (ix2 n p)).trans ?_
  rw [addf_apply, shapeCast_1ab_ab_apply, shapeCast_1ab_ab_apply, member0_apply, member1_apply]

/-- With the stack holding the two scaled half sums, the result is the mean of the sixteen outputs. -/
theorem result_eq (c : Dev nD)
    (hfin : (dats m 0 c).arrAt 13 cfg0.N = fun y => accT (args m c) (8 * (y 0).val + 7) (y 1) (y 2) * c16) :
    @Eq (FVec Ideal S4096x64 .f32) (Pipeline.afterTail₀ cfgs (dats m) 0 (V0 m) [hostOps1] c main_v13) (G (args m c)) := by
  funext i
  obtain ⟨n, p, rfl⟩ : ∃ (n : Fin 4096) (p : Fin 64), i = ix2 n p := ⟨i 0, i 1, eq_ix2 i⟩
  refine (tail_apply m c n p).trans ?_
  have hs : stacked m c = fun y => accT (args m c) (8 * (y 0).val + 7) (y 1) (y 2) * c16 := hfin
  rw [hs]
  exact halves (args m c) n p

/-! ## The run -/

/-- Every weakly fair execution of the program terminates with the result array at the mean of the sixteen outputs and
    the thirteen arguments as launched: the frame run, its result buffer read through the lines after the region and
    its arguments read as the frame reads them. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13) = G (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨((h c).2 main_v13 (Pipeline.mem_restRefs_of main_v13 (by decide) (by decide))).trans (result_eq m c (Final.final13 m c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c)))⟩)
    (run_main m ρ)

end Cert.KernelIdeal.Tail

end
-- ==== Proof.lean ====
/-
  The certificate of the ensemble of sixteen masked multi-layer perceptrons (Defs.lean): the Pallas kernel against the
  jnp reference.

  Both programs compute, at every row n and output column p, the mean over the sixteen members b of
      out_b(n, p) = (relu(relu(relu(x_n · M⁰_b∘W₀ᵀ + b₀) · M¹_b∘W₁ᵀ + b₁) · M²_b∘W₂ᵀ + b₂) · M³_b∘W₃ᵀ + b₃)(p),
  the function `Cert.MaskedMlp.G` of Proof/Spec.lean.

  The reference broadcasts everything to the sixteen members, contracts with a batched product, sums over the member axis
  from zero and divides by sixteen (Proof/RefValue.lean reads its run, layer by layer, as G).

  The kernel runs a grid of 2 cores × 8 steps; step (core, s) works on member 8·core + s.  In each step a loop walks the
  4096 rows in eight chunks of 512 and adds the member's output to an accumulator carried between the steps (zeroed at a
  core's first step); at a core's last step the accumulator times 1/16 is written to that core's half of the output, and the
  host adds the two halves.  Proof/Trip.lean reads one loop trip's store and shows that the trips, working on disjoint row
  chunks, are functions of what the accumulator held when the loop was entered; Proof/Payload.lean reads the body's
  arithmetic at an index (a product into a zero accumulator is the plain sum over the contracted axis, a change of float
  format is the identity on the extended reals); Proof/Scratch.lean puts the two together: a step leaves the accumulator it
  found plus the member's output; Proof/Blocks.lean reads the blocks a step is handed (the transposed weights, the bias rows,
  the member's masks) off the argument arrays; Proof/Points.lean inducts over the grid points: after step t the accumulator
  is the running sum of the core's members up to t; Proof/Final.lean reads the output array after the run (each core's
  half is its eight members' sum times 1/16) and Proof/Tail.lean the host's sum of the halves, which is G because 1/16 is a
  nonnegative real and distributes over a sum of extended reals, whatever they are (Spec.halves).

  The three frames: the kernel programs' are the generated ones; the reference's is its run with the result dropped.  The
  ideal pass rewrote nothing, so there is nothing to preserve.
-/
import proofs.«172082_j82995948027952_1_alg».proof.Defs
import proofs.«172082_j82995948027952_1_alg».proof.Proof.Gen.Kernel
import proofs.«172082_j82995948027952_1_alg».proof.Proof.Gen.Kernel.Frame
import proofs.«172082_j82995948027952_1_alg».proof.Proof.Gen.KernelIdeal
import proofs.«172082_j82995948027952_1_alg».proof.Proof.Gen.KernelIdeal.Frame
import proofs.«172082_j82995948027952_1_alg».proof.Proof.Gen.ReferenceIdeal
import proofs.«172082_j82995948027952_1_alg».proof.Proof.Gen.ReferenceIdeal.Run
import proofs.«172082_j82995948027952_1_alg».proof.Proof.Gen.Pre_finite_inputs
import proofs.«172082_j82995948027952_1_alg».proof.Proof.RefValue
import proofs.«172082_j82995948027952_1_alg».proof.Proof.Tail

noncomputable section

namespace Cert.Proof

open Idealize.ShloMosaic Idealize.ShloMosaic.TcCoe Idealize.SL.Sem

/-- Memories that agree on the arguments give the two programs the same record of arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (⟨m' ((c.tc : Thread Cert.ReferenceIdeal.nD Cert.ReferenceIdeal.τ).loc Cert.ReferenceIdeal.main_arg0),
      m' ((c.tc : Thread Cert.ReferenceIdeal.nD Cert.ReferenceIdeal.τ).loc Cert.ReferenceIdeal.main_arg1),
      m' ((c.tc : Thread Cert.ReferenceIdeal.nD Cert.ReferenceIdeal.τ).loc Cert.ReferenceIdeal.main_arg2),
      m' ((c.tc : Thread Cert.ReferenceIdeal.nD Cert.ReferenceIdeal.τ).loc Cert.ReferenceIdeal.main_arg3),
      m' ((c.tc : Thread Cert.ReferenceIdeal.nD Cert.ReferenceIdeal.τ).loc Cert.ReferenceIdeal.main_arg4),
      m' ((c.tc : Thread Cert.ReferenceIdeal.nD Cert.ReferenceIdeal.τ).loc Cert.ReferenceIdeal.main_arg5),
      m' ((c.tc : Thread Cert.ReferenceIdeal.nD Cert.ReferenceIdeal.τ).loc Cert.ReferenceIdeal.main_arg6),
      m' ((c.tc : Thread Cert.ReferenceIdeal.nD Cert.ReferenceIdeal.τ).loc Cert.ReferenceIdeal.main_arg7),
      m' ((c.tc : Thread Cert.ReferenceIdeal.nD Cert.ReferenceIdeal.τ).loc Cert.ReferenceIdeal.main_arg8),
      m' ((c.tc : Thread Cert.ReferenceIdeal.nD Cert.ReferenceIdeal.τ).loc Cert.ReferenceIdeal.main_arg9),
      m' ((c.tc : Thread Cert.ReferenceIdeal.nD Cert.ReferenceIdeal.τ).loc Cert.ReferenceIdeal.main_arg10),
      m' ((c.tc : Thread Cert.ReferenceIdeal.nD Cert.ReferenceIdeal.τ).loc Cert.ReferenceIdeal.main_arg11),
      m' ((c.tc : Thread Cert.ReferenceIdeal.nD Cert.ReferenceIdeal.τ).loc Cert.ReferenceIdeal.main_arg12)⟩ : Cert.MaskedMlp.Args)
      = Cert.KernelIdeal.KValue.args m c := by
  obtain ⟨h0, h1, h2, h3, h4, h5, h6, h7, h8, h9, h10, h11, h12⟩ := h
  unfold Cert.KernelIdeal.KValue.args
  rw [h0, h1, h2, h3, h4, h5, h6, h7, h8, h9, h10, h11, h12]

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the mean of the sixteen members' outputs of the common arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.MaskedMlp.G (Cert.KernelIdeal.KValue.args m c), Cert.KernelIdeal.Tail.run m ρ, ?_⟩
  refine (θ_run Cert.ReferenceIdeal.defs _ _).mono (fun _ h c => ⟨(h c).1.trans ?_, (h c).2⟩)
    (Cert.ReferenceIdeal.RefValue.run m' ρ')
  exact congrArg Cert.MaskedMlp.G (args_agree m m' c (hagree c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
